-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S100000x1 : Shape := ⟨2, ![100000, 1]⟩
abbrev S100000x64 : Shape := ⟨2, ![100000, 64]⟩
abbrev S1000000x64 : Shape := ⟨2, ![1000000, 64]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg0 : IVec S1048576 32) (main_arg1 : IVec S1048576 32) (main_v13 : IVec S_ 1) (main_v15 : IVec S1048576 1) (main_c_5 : IVec S_ 32) : IVec S_ 1 :=
  let main_v16 : IVec S1048576 32 := broadcastInDim S1048576 ![] bcast_S_S1048576 main_c_5
  let main_v17 : IVec S1048576 1 := cmpi .slt main_arg1 main_v16
  let main_v18 : IVec S1048576 1 := andi main_v15 main_v17
  let main_c_6 : IVec S_ 1 := constantI S_ 1 1#1
  let main_v19 : IVec S_ 1 := (fun x v => Host.reduce IntOp.andi x v reducesTo_S1048576_S_d0 h_S_) main_v18 main_c_6
  let main_v20 : IVec S_ 1 := andi main_v13 main_v19
  let main_c_7 : IVec S_ 32 := constantI S_ 32 0#32
  let main_v21 : IVec S1048576 32 := broadcastInDim S1048576 ![] bcast_S_S1048576 main_c_7
  let main_v22 : IVec S1048576 1 := cmpi .sge main_arg0 main_v21
  let main_c_8 : IVec S_ 32 := constantI S_ 32 1000000#32
  let main_v23 : IVec S1048576 32 := broadcastInDim S1048576 ![] bcast_S_S1048576 main_c_8
  let main_v24 : IVec S1048576 1 := cmpi .slt main_arg0 main_v23
  let main_v25 : IVec S1048576 1 := andi main_v22 main_v24
  let main_c_9 : IVec S_ 1 := constantI S_ 1 1#1
  let main_v26 : IVec S_ 1 := (fun x v => Host.reduce IntOp.andi x v reducesTo_S1048576_S_d0 h_S_) main_v25 main_c_9
  let main_v27 : IVec S_ 1 := andi main_v20 main_v26
  main_v27

def fn {F : FTy → Type} [FloatOps F] (main_arg0 : IVec S1048576 32) (main_arg1 : IVec S1048576 32) (main_arg2 : IVec S1048576 32) (main_arg3 : FVec F S100000x1 .f32) (main_arg4 : FVec F S100000x64 .f32) (main_arg5 : FVec F S1000000x64 .f32) : IVec S_ 1 :=
  let main_v0 : FVec F S100000x1 .f32 := Host.absf main_arg3
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1000000x64 .f32 := Host.absf main_arg5
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_c_4 : IVec S_ 32 := constantI S_ 32 0#32
  let main_v14 : IVec S1048576 32 := broadcastInDim S1048576 ![] bcast_S_S1048576 main_c_4
  let main_v15 : IVec S1048576 1 := cmpi .sge main_arg1 main_v14
  let main_c_5 : IVec S_ 32 := constantI S_ 32 100000#32
  fn_part1 (F := F) main_arg0 main_arg1 main_v13 main_v15 main_c_5
-- ==== Kernel.lean ====
abbrev S1048576 : Shape := ⟨1, ![1048576]⟩
abbrev S100000x1 : Shape := ⟨2, ![100000, 1]⟩
abbrev S100000x64 : Shape := ⟨2, ![100000, 64]⟩
abbrev S1000000x64 : Shape := ⟨2, ![1000000, 64]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x64 : Shape := ⟨2, ![1048576, 64]⟩
abbrev S8192x128 : Shape := ⟨2, ![8192, 128]⟩
abbrev S16x128 : Shape := ⟨2, ![16, 128]⟩
abbrev S1024x128 : Shape := ⟨2, ![1024, 128]⟩
abbrev S8x128 : Shape := ⟨2, ![8, 128]⟩
abbrev S128x8x128 : Shape := ⟨3, ![128, 8, 128]⟩

abbrev nBuf : Space → Nat
  | .hbm => 90
  | .vmem => 6
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1048576, .i32⟩
  | .hbm, ⟨3, _⟩ => ⟨S100000x1, .f32⟩
  | .hbm, ⟨4, _⟩ => ⟨S100000x64, .f32⟩
  | .hbm, ⟨5, _⟩ => ⟨S1000000x64, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1, .i32⟩
  | .hbm, ⟨15, _⟩ => ⟨S_, .i32⟩
  | .hbm, ⟨16, _⟩ => ⟨S1048576x1, .i32⟩
  | .hbm, ⟨17, _⟩ => ⟨S1048576x1, .i1⟩
  | .hbm, ⟨18, _⟩ => ⟨S1x1, .i32⟩
  | .hbm, ⟨19, _⟩ => ⟨S1048576x1, .i32⟩
  | .hbm, ⟨20, _⟩ => ⟨S1048576x1, .i1⟩
  | .hbm, ⟨21, _⟩ => ⟨S1048576x1, .i1⟩
  | .hbm, ⟨22, _⟩ => ⟨S_, .i1⟩
  | .hbm, ⟨23, _⟩ => ⟨S1048576, .i1⟩
  | .hbm, ⟨24, _⟩ => ⟨S1048576x64, .f32⟩
  | .hbm, ⟨25, _⟩ => ⟨S1048576x64, .i1⟩
  | .hbm, ⟨26, _⟩ => ⟨S_, .f32⟩
  | .hbm, ⟨27, _⟩ => ⟨S1048576x64, .f32⟩
  | .hbm, ⟨28, _⟩ => ⟨S1048576x64, .f32⟩
  | .hbm, ⟨29, _⟩ => ⟨S_, .i32⟩
  | .hbm, ⟨30, _⟩ => ⟨S1048576, .i32⟩
  | .hbm, ⟨31, _⟩ => ⟨S1048576, .i1⟩
  | .hbm, ⟨32, _⟩ => ⟨S_, .i32⟩
  | .hbm, ⟨33, _⟩ => ⟨S1048576, .i32⟩
  | .hbm, ⟨34, _⟩ => ⟨S1048576, .i32⟩
  | .hbm, ⟨35, _⟩ => ⟨S1048576, .i32⟩
  | .hbm, ⟨36, _⟩ => ⟨S1048576x1, .i32⟩
  | .hbm, ⟨37, _⟩ => ⟨S1, .i32⟩
  | .hbm, ⟨38, _⟩ => ⟨S_, .i32⟩
  | .hbm, ⟨39, _⟩ => ⟨S1048576x1, .i32⟩
  | .hbm, ⟨40, _⟩ => ⟨S1048576x1, .i1⟩
  | .hbm, ⟨41, _⟩ => ⟨S1x1, .i32⟩
  | .hbm, ⟨42, _⟩ => ⟨S1048576x1, .i32⟩
  | .hbm, ⟨43, _⟩ => ⟨S1048576x1, .i1⟩
  | .hbm, ⟨44, _⟩ => ⟨S1048576x1, .i1⟩
  | .hbm, ⟨45, _⟩ => ⟨S_, .i1⟩
  | .hbm, ⟨46, _⟩ => ⟨S1048576, .i1⟩
  | .hbm, ⟨47, _⟩ => ⟨S1048576x64, .f32⟩
  | .hbm, ⟨48, _⟩ => ⟨S1048576x64, .i1⟩
  | .hbm, ⟨49, _⟩ => ⟨S_, .f32⟩
  | .hbm, ⟨50, _⟩ => ⟨S1048576x64, .f32⟩
  | .hbm, ⟨51, _⟩ => ⟨S1048576x64, .f32⟩
  | .hbm, ⟨52, _⟩ => ⟨S_, .i32⟩
  | .hbm, ⟨53, _⟩ => ⟨S1048576, .i32⟩
  | .hbm, ⟨54, _⟩ => ⟨S1048576, .i1⟩
  | .hbm, ⟨55, _⟩ => ⟨S_, .i32⟩
  | .hbm, ⟨56, _⟩ => ⟨S1048576, .i32⟩
  | .hbm, ⟨57, _⟩ => ⟨S1048576, .i32⟩
  | .hbm, ⟨58, _⟩ => ⟨S1048576, .i32⟩
  | .hbm, ⟨59, _⟩ => ⟨S1048576x1, .i32⟩
  | .hbm, ⟨60, _⟩ => ⟨S1, .i32⟩
  | .hbm, ⟨61, _⟩ => ⟨S_, .i32⟩
  | .hbm, ⟨62, _⟩ => ⟨S1048576x1, .i32⟩
  | .hbm, ⟨63, _⟩ => ⟨S1048576x1, .i1⟩
  | .hbm, ⟨64, _⟩ => ⟨S1x1, .i32⟩
  | .hbm, ⟨65, _⟩ => ⟨S1048576x1, .i32⟩
  | .hbm, ⟨66, _⟩ => ⟨S1048576x1, .i1⟩
  | .hbm, ⟨67, _⟩ => ⟨S1048576x1, .i1⟩
  | .hbm, ⟨68, _⟩ => ⟨S_, .i1⟩
  | .hbm, ⟨69, _⟩ => ⟨S1048576, .i1⟩
  | .hbm, ⟨70, _⟩ => ⟨S1048576x1, .f32⟩
  | .hbm, ⟨71, _⟩ => ⟨S1048576x1, .i1⟩
  | .hbm, ⟨72, _⟩ => ⟨S_, .f32⟩
  | .hbm, ⟨73, _⟩ => ⟨S1048576x1, .f32⟩
  | .hbm, ⟨74, _⟩ => ⟨S1048576x1, .f32⟩
  | .hbm, ⟨75, _⟩ => ⟨S1048576x64, .f32⟩
  | .hbm, ⟨76, _⟩ => ⟨S_, .f32⟩
  | .hbm, ⟨77, _⟩ => ⟨S1048576, .f32⟩
  | .hbm, ⟨78, _⟩ => ⟨S1048576x1, .f32⟩
  | .hbm, ⟨79, _⟩ => ⟨S1048576x1, .f32⟩
  | .hbm, ⟨80, _⟩ => ⟨S1048576, .f32⟩
  | .hbm, ⟨81, _⟩ => ⟨S1048576x1, .f32⟩
  | .hbm, ⟨82, _⟩ => ⟨S8192x128, .f32⟩
  | .hbm, ⟨83, _⟩ => ⟨S8192x128, .f32⟩
  | .hbm, ⟨84, _⟩ => ⟨S16x128, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S8x128, .f32⟩
  | .local _ .vmem, ⟨5, _⟩ => ⟨S8x128, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2 : Ref sig .tc := ⟨.hbm, 74, rfl⟩
abbrev main_v3 : Ref sig .tc := ⟨.hbm, 75, rfl⟩
abbrev main_cst : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_cst_0 : Ref sig .tc := ⟨.hbm, 85, rfl⟩
abbrev main_v12 : Ref sig .tc := ⟨.hbm, 86, rfl⟩
abbrev main_v13 : Ref sig .tc := ⟨.hbm, 87, rfl⟩
abbrev main_cst_1 : Ref sig .tc := ⟨.hbm, 88, rfl⟩
abbrev main_v14 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x64_0 : S1048576.BroadcastsInDim S1048576x64 (![0] : Fin 1 → Fin S1048576x64.rank)
  bcast_S_S1048576x64 : S_.BroadcastsInDim S1048576x64 (![] : Fin 0 → Fin S1048576x64.rank)
  reducesTo_S1048576x64_S1048576_d1 : S1048576x64.ReducesTo [1] S1048576
  shapeCasts_S1048576x1_S8192x128 : S1048576x1.ShapeCasts S8192x128
  inb_S8x128_S8x128_0_0 : ∀ a, (![0, 0] : Fin 2 → Nat) a + S8x128.size a ≤ S8x128.size a
  h_S8x128 : 0 < S8x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x128_S128x8x128 : S1024x128.ShapeCasts S128x8x128
  reduces_S128x8x128_S8x128 : S128x8x128.Reduces [0] S8x128
  shapeCasts_S8x128_S8x128 : S8x128.ShapeCasts S8x128
  reducesTo_S16x128_S_d0_1 : S16x128.ReducesTo [0, 1] S_
  gather_S100000x64_S1048576x1_S1048576x64_1_0_n_n_0_1_164_wf : GatherDims.WF S100000x64 S1048576x1 S1048576x64 [1] [0] [] [0] [] 1 ![1, 64]
  gather_S1000000x64_S1048576x1_S1048576x64_1_0_n_n_0_1_164_wf : GatherDims.WF S1000000x64 S1048576x1 S1048576x64 [1] [0] [] [0] [] 1 ![1, 64]
  gather_S100000x1_S1048576x1_S1048576x1_1_0_n_n_0_1_11_wf : GatherDims.WF S100000x1 S1048576x1 S1048576x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def gather_S100000x64_S1048576x1_S1048576x64_1_0_n_n_0_1_164 : GatherDims S100000x64 S1048576x1 S1048576x64 where
  offsetDims := [1]
  collapsedSliceDims := [0]
  operandBatchingDims := []
  startIndicesBatchingDims := []
  startIndexMap := [0]
  indexVectorDim := 1
  sliceSizes := ![1, 64]
  wf := gather_S100000x64_S1048576x1_S1048576x64_1_0_n_n_0_1_164_wf
def gather_S1000000x64_S1048576x1_S1048576x64_1_0_n_n_0_1_164 : GatherDims S1000000x64 S1048576x1 S1048576x64 where
  offsetDims := [1]
  collapsedSliceDims := [0]
  operandBatchingDims := []
  startIndicesBatchingDims := []
  startIndexMap := [0]
  indexVectorDim := 1
  sliceSizes := ![1, 64]
  wf := gather_S1000000x64_S1048576x1_S1048576x64_1_0_n_n_0_1_164_wf
def gather_S100000x1_S1048576x1_S1048576x1_1_0_n_n_0_1_11 : GatherDims S100000x1 S1048576x1 S1048576x1 where
  offsetDims := [1]
  collapsedSliceDims := [0]
  operandBatchingDims := []
  startIndicesBatchingDims := []
  startIndexMap := [0]
  indexVectorDim := 1
  sliceSizes := ![1, 1]
  wf := gather_S100000x1_S1048576x1_S1048576x1_1_0_n_n_0_1_11_wf

abbrev win0_0 : Pipeline.Window sig grid0 :=
  Pipeline.Window.ofSpec (Memref.whole main_v9) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576 : Shape := ⟨1, ![1048576]⟩
abbrev S100000x1 : Shape := ⟨2, ![100000, 1]⟩
abbrev S100000x64 : Shape := ⟨2, ![100000, 64]⟩
abbrev S1000000x64 : Shape := ⟨2, ![1000000, 64]⟩
abbrev S_ : Shape := ⟨0, ![]⟩
abbrev S1048576x1 : Shape := ⟨2, ![1048576, 1]⟩
abbrev S1048576x64 : Shape := ⟨2, ![1048576, 64]⟩

abbrev nBuf : Space → Nat
  | .hbm => 84
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S1048576, .i32⟩
  | .hbm, ⟨2, _⟩ => ⟨S1048576, .i32⟩
  | .hbm, ⟨3, _⟩ => ⟨S100000x1, .f32⟩
  | .hbm, ⟨4, _⟩ => ⟨S100000x64, .f32⟩
  | .hbm, ⟨5, _⟩ => ⟨S1000000x64, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x64, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576x64, .f32⟩
  | .hbm, ⟨24, _⟩ => ⟨S1048576x64, .f32⟩
  | .hbm, ⟨25, _⟩ => ⟨S_, .f32⟩
  | .hbm, ⟨26, _⟩ => ⟨S1048576, .f32⟩
  | .hbm, ⟨27, _⟩ => ⟨S1048576x1, .f32⟩
  | .hbm, ⟨28, _⟩ => ⟨S_, .i32⟩
  | .hbm, ⟨29, _⟩ => ⟨S1048576, .i32⟩
  | .hbm, ⟨30, _⟩ => ⟨S1048576, .i1⟩
  | .hbm, ⟨31, _⟩ => ⟨S_, .i32⟩
  | .hbm, ⟨32, _⟩ => ⟨S1048576, .i32⟩
  | .hbm, ⟨33, _⟩ => ⟨S1048576, .i32⟩
  | .hbm, ⟨34, _⟩ => ⟨S1048576, .i32⟩
  | .hbm, ⟨35, _⟩ => ⟨S1048576x1, .i32⟩
  | .hbm, ⟨36, _⟩ => ⟨S1048576x1, .f32⟩
  | .hbm, ⟨37, _⟩ => ⟨S1048576x1, .f32⟩
  | .hbm, ⟨38, _⟩ => ⟨S1048576, .f32⟩
  | .hbm, ⟨39, _⟩ => ⟨S1048576x1, .f32⟩
  | .hbm, ⟨40, _⟩ => ⟨S1048576x1, .f32⟩
  | .hbm, ⟨41, _⟩ => ⟨S_, .f32⟩
  | .hbm, ⟨42, _⟩ => ⟨S1048576x1, .f32⟩
  | .hbm, ⟨43, _⟩ => ⟨S1048576x1, .f32⟩
  | .hbm, ⟨44, _⟩ => ⟨S1048576x1, .f32⟩
  | .hbm, ⟨45, _⟩ => ⟨S1048576x1, .f32⟩
  | .hbm, ⟨46, _⟩ => ⟨S1048576x1, .i1⟩
  | .hbm, ⟨47, _⟩ => ⟨S1048576x1, .f32⟩
  | .hbm, ⟨48, _⟩ => ⟨S1048576x1, .f32⟩
  | .hbm, ⟨49, _⟩ => ⟨S1048576x1, .f32⟩
  | .hbm, ⟨50, _⟩ => ⟨S1048576x1, .f32⟩
  | .hbm, ⟨51, _⟩ => ⟨S1048576x1, .f32⟩
  | .hbm, ⟨52, _⟩ => ⟨S1048576x1, .f32⟩
  | .hbm, ⟨53, _⟩ => ⟨S1048576x1, .f32⟩
  | .hbm, ⟨54, _⟩ => ⟨S1048576x1, .f32⟩
  | .hbm, ⟨55, _⟩ => ⟨S1048576x1, .f32⟩
  | .hbm, ⟨56, _⟩ => ⟨S1048576x1, .f32⟩
  | .hbm, ⟨57, _⟩ => ⟨S_, .f32⟩
  | .hbm, ⟨58, _⟩ => ⟨S1048576x1, .f32⟩
  | .hbm, ⟨59, _⟩ => ⟨S1048576x1, .f32⟩
  | .hbm, ⟨60, _⟩ => ⟨S1048576x1, .f32⟩
  | .hbm, ⟨61, _⟩ => ⟨S1048576x1, .f32⟩
  | .hbm, ⟨62, _⟩ => ⟨S_, .f32⟩
  | .hbm, ⟨63, _⟩ => ⟨S1048576x1, .f32⟩
  | .hbm, ⟨64, _⟩ => ⟨S1048576x1, .f32⟩
  | .hbm, ⟨65, _⟩ => ⟨S1048576x1, .f32⟩
  | .hbm, ⟨66, _⟩ => ⟨S1048576x1, .f32⟩
  | .hbm, ⟨67, _⟩ => ⟨S1048576x1, .i1⟩
  | .hbm, ⟨68, _⟩ => ⟨S1048576x1, .f32⟩
  | .hbm, ⟨69, _⟩ => ⟨S1048576x1, .f32⟩
  | .hbm, ⟨70, _⟩ => ⟨S1048576x1, .f32⟩
  | .hbm, ⟨71, _⟩ => ⟨S1048576x1, .f32⟩
  | .hbm, ⟨72, _⟩ => ⟨S1048576x1, .f32⟩
  | .hbm, ⟨73, _⟩ => ⟨S1048576x1, .f32⟩
  | .hbm, ⟨74, _⟩ => ⟨S1048576x1, .f32⟩
  | .hbm, ⟨75, _⟩ => ⟨S1048576x1, .f32⟩
  | .hbm, ⟨76, _⟩ => ⟨S1048576x1, .f32⟩
  | .hbm, ⟨77, _⟩ => ⟨S1048576x1, .f32⟩
  | .hbm, ⟨78, _⟩ => ⟨S1048576x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_v1 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_6 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1048576x64_S1048576_d1 : S1048576x64.ReducesTo [1] S1048576
  h_S_ : 0 < S_.numel
  bcast_S_S1048576x1 : S_.BroadcastsInDim S1048576x1 (![] : Fin 0 → Fin S1048576x1.rank)
  reducesTo_S1048576x1_S_d0_1 : S1048576x1.ReducesTo [0, 1] S_
  gather_S100000x64_S1048576x1_S1048576x64_1_0_n_n_0_1_164_wf : GatherDims.WF S100000x64 S1048576x1 S1048576x64 [1] [0] [] [0] [] 1 ![1, 64]
  gather_S1000000x64_S1048576x1_S1048576x64_1_0_n_n_0_1_164_wf : GatherDims.WF S1000000x64 S1048576x1 S1048576x64 [1] [0] [] [0] [] 1 ![1, 64]
  gather_S100000x1_S1048576x1_S1048576x1_1_0_n_n_0_1_11_wf : GatherDims.WF S100000x1 S1048576x1 S1048576x1 [1] [0] [] [0] [] 1 ![1, 1]

variable [Facts₀]

def gather_S100000x64_S1048576x1_S1048576x64_1_0_n_n_0_1_164 : GatherDims S100000x64 S1048576x1 S1048576x64 where
  offsetDims := [1]
  collapsedSliceDims := [0]
  operandBatchingDims := []
  startIndicesBatchingDims := []
  startIndexMap := [0]
  indexVectorDim := 1
  sliceSizes := ![1, 64]
  wf := gather_S100000x64_S1048576x1_S1048576x64_1_0_n_n_0_1_164_wf
def gather_S1000000x64_S1048576x1_S1048576x64_1_0_n_n_0_1_164 : GatherDims S1000000x64 S1048576x1 S1048576x64 where
  offsetDims := [1]
  collapsedSliceDims := [0]
  operandBatchingDims := []
  startIndicesBatchingDims := []
  startIndexMap := [0]
  indexVectorDim := 1
  sliceSizes := ![1, 64]
  wf := gather_S1000000x64_S1048576x1_S1048576x64_1_0_n_n_0_1_164_wf
def gather_S100000x1_S1048576x1_S1048576x1_1_0_n_n_0_1_11 : GatherDims S100000x1 S1048576x1 S1048576x1 where
  offsetDims := [1]
  collapsedSliceDims := [0]
  operandBatchingDims := []
  startIndicesBatchingDims := []
  startIndexMap := [0]
  indexVectorDim := 1
  sliceSizes := ![1, 1]
  wf := gather_S100000x1_S1048576x1_S1048576x1_1_0_n_n_0_1_11_wf

class Facts : Prop extends Facts₀ where

variable [Facts]
-- ==== Proof.HostFns.lean ====
/-
  The host-side arithmetic of both programs as pure functions of the argument arrays.

  Both programs gather, for each of the 1048576 pairs, the item's row of `disc`, the user's row of `theta` and the
  item's entry of `diff` (an index below zero first shifted up by the table's extent), take the rows' inner product
  and add the entry: the logit `x`. The kernel's program gathers through a take that replaces a row whose shifted
  index lies outside the table by a fill value; the reference gathers plainly. On indices inside the tables the two
  are the same array. The labels are the integers `s` converted. The reference then forms the log-likelihood of
  every pair, adds them all, divides by the number of pairs and negates; the kernel's program adds the 16 × 128
  partial sums its kernel leaves, negates and divides.
-/
import Idealize.ShloMosaic.PureOps

noncomputable section

namespace Cert.Bce

open Idealize.ShloMosaic

abbrev S_ : Shape := ⟨0, ![]⟩
abbrev S1 : Shape := ⟨1, ![1]⟩
abbrev S1x1 : Shape := ⟨2, ![1, 1]⟩
/-- One entry per pair. -/
abbrev SB : Shape := ⟨1, ![1048576]⟩
/-- One row of `k` entries per pair. -/
abbrev SBk (k : Nat) : Shape := ⟨2, ![1048576, k]⟩
/-- A table of `N` rows of `k` entries. -/
abbrev ST (N k : Nat) : Shape := ⟨2, ![N, k]⟩
/-- The pairs laid out as 8192 rows of 128 lanes. -/
abbrev SR : Shape := ⟨2, ![8192, 128]⟩
/-- The kernel's partial sums. -/
abbrev SO : Shape := ⟨2, ![16, 128]⟩

/-- The shape relations the host lines cite. -/
structure HostFacts : Prop where
  b_S_SB : S_.BroadcastsInDim SB (![] : Fin 0 → Fin SB.rank)
  b_SB_SB1 : SB.BroadcastsInDim (SBk 1) (![0] : Fin 1 → Fin (SBk 1).rank)
  b_S_SB1 : S_.BroadcastsInDim (SBk 1) (![] : Fin 0 → Fin (SBk 1).rank)
  h_S_ : 0 < S_.numel
  r_SB64_SB : (SBk 64).ReducesTo [1] SB

/-- The shape relations only the take's range test cites. -/
structure MaskFacts : Prop where
  b_S1_S1x1 : S1.BroadcastsInDim S1x1 (![1] : Fin 1 → Fin S1x1.rank)
  b_S1x1_SB1 : S1x1.BroadcastsInDim (SBk 1) (![0, 1] : Fin 2 → Fin (SBk 1).rank)
  r_SB1_SB : (SBk 1).ReducesTo [1] SB

variable {F : FTy → Type} [FloatOps F]

/-- An index below zero shifted up by the table's extent `n` (numpy's negative indexing). -/
def wrapIdx (hf : HostFacts) (n : BitVec 32) (i : IVec SB 32) : IVec SB 32 :=
  select (cmpi .slt i (broadcastInDim SB ![] hf.b_S_SB (constantI S_ 32 0#32)))
    (addi i (broadcastInDim SB ![] hf.b_S_SB (constantI S_ 32 n))) i

/-- The shifted indices as a column, the gather's start indices. -/
def colIdx (hf : HostFacts) (n : BitVec 32) (i : IVec SB 32) : IVec (SBk 1) 32 :=
  broadcastInDim (SBk 1) ![0] hf.b_SB_SB1 (wrapIdx hf n i)

/-- Per pair: is the shifted index inside `[0, hi]`? -/
def inRange (hf : HostFacts) (hm : MaskFacts) (hi : BitVec 32) (col : IVec (SBk 1) 32) : IVec SB 1 :=
  Host.reduce IntOp.andi
    (andi (cmpi .sge col (broadcastInDim (SBk 1) ![] hf.b_S_SB1 (constantI S_ 32 0#32)))
      (cmpi .sle col (broadcastInDim (SBk 1) ![0, 1] hm.b_S1x1_SB1 (broadcastInDim S1x1 ![1] hm.b_S1_S1x1 (constantI S1 32 hi)))))
    (constantI S_ 1 1#1) hm.r_SB1_SB hf.h_S_

/-- The plain gather of the rows at the shifted indices. -/
def gatherRows {N k : Nat} (hf : HostFacts) (d : GatherDims (ST N k) (SBk 1) (SBk k)) (n : BitVec 32)
    (table : FVec F (ST N k) .f32) (i : IVec SB 32) : FVec F (SBk k) .f32 :=
  Host.gather d table (colIdx hf n i)

/-- The take with a fill: the gathered row where the shifted index is inside the table, the fill word elsewhere. -/
def takeFill {N k : Nat} (hf : HostFacts) (hm : MaskFacts) (d : GatherDims (ST N k) (SBk 1) (SBk k))
    (hb : SB.BroadcastsInDim (SBk k) (![0] : Fin 1 → Fin (SBk k).rank))
    (hb0 : S_.BroadcastsInDim (SBk k) (![] : Fin 0 → Fin (SBk k).rank))
    (n hi : BitVec 32) (table : FVec F (ST N k) .f32) (i : IVec SB 32) : FVec F (SBk k) .f32 :=
  select (broadcastInDim (SBk k) ![0] hb (inRange hf hm hi (colIdx hf n i)))
    (Host.gather d table (colIdx hf n i))
    (broadcastInDim (SBk k) ![] hb0 (constant S_ .f32 0x7FC00000#32))

/-- The logits: the gathered rows' inner products plus the gathered entries. -/
def logits (hf : HostFacts) (dRows tRows : FVec F (SBk 64) .f32) (dEntry : FVec F (SBk 1) .f32) : FVec F (SBk 1) .f32 :=
  addf (broadcastInDim (SBk 1) ![0] hf.b_SB_SB1
    (Host.reduceAdd (mulf dRows tRows) (constant S_ .f32 0x00000000#32) hf.r_SB64_SB hf.h_S_)) dEntry

/-- The labels as floats, one per pair. -/
def labels (hf : HostFacts) (s : IVec SB 32) : FVec F (SBk 1) .f32 :=
  broadcastInDim (SBk 1) ![0] hf.b_SB_SB1 (sitofp .f32 s)

/-- The reference's `softplus`, line by line. -/
def softplusV (hf : HostFacts) (a : FVec F (SBk 1) .f32) : FVec F (SBk 1) .f32 :=
  let z : FVec F (SBk 1) .f32 := broadcastInDim (SBk 1) ![] hf.b_S_SB1 (constant S_ .f32 0x00000000#32)
  select (cmpf .une (subf a z) (subf a z)) (addf a z)
    (addf (maximumf a z) (Host.log1p (Host.exp (Host.negf (Host.absf (subf a z))))))

/-- The reference's `log_sigmoid`. -/
def logSigV (hf : HostFacts) (a : FVec F (SBk 1) .f32) : FVec F (SBk 1) .f32 :=
  Host.negf (softplusV hf (Host.negf a))

/-- The reference's log-likelihoods, one per pair. -/
def lossV (hf : HostFacts) (x s : FVec F (SBk 1) .f32) : FVec F (SBk 1) .f32 :=
  addf (mulf s (logSigV hf x))
    (mulf (subf (broadcastInDim (SBk 1) ![] hf.b_S_SB1 (constant S_ .f32 0x3F800000#32)) s) (logSigV hf (Host.negf x)))

/-- The reference's result: minus the mean of the log-likelihoods. -/
def refOut (hf : HostFacts) (hr : (SBk 1).ReducesTo [0, 1] S_) (x s : FVec F (SBk 1) .f32) : FVec F S_ .f32 :=
  Host.negf (Host.divf (Host.reduceAdd (lossV hf x s) (constant S_ .f32 0x00000000#32) hr hf.h_S_)
    (constant S_ .f32 0x49800000#32))

/-- The kernel program's result from its kernel's partial sums: their sum, negated, divided by the number of pairs. -/
def kernelOut (hf : HostFacts) (hr : SO.ReducesTo [0, 1] S_) (o : FVec F SO .f32) : FVec F S_ .f32 :=
  Host.divf (Host.negf (Host.reduceAdd o (constant S_ .f32 0x00000000#32) hr hf.h_S_)) (constant S_ .f32 0x49800000#32)

end Cert.Bce

end
-- ==== Proof.KernelHost.lean ====
/-
  What the kernel's program hands its kernel.

  Before the launch the host lines compute the logits (through three filled takes, one stretch of lines each) and the
  labels and re-lay both as 8192 rows of 128 lanes: these are the two arrays the kernel's windows read. Each take's
  stretch writes only its own buffers, so the last stretch finds the three takes of the argument arrays.
-/
import proofs.«401049_j455266533950_3_alg».proof.Proof.Gen.KernelIdeal.Frame
import proofs.«401049_j455266533950_3_alg».proof.Proof.HostFns
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

/-- The shape relations of the host lines, from the program's own. -/
theorem hostFacts : Bce.HostFacts :=
  ⟨Facts₀.bcast_S_S1048576, Facts₀.bcast_S1048576_S1048576x1_0, Facts₀.bcast_S_S1048576x1, Facts₀.h_S_,
    Facts₀.reducesTo_S1048576x64_S1048576_d1⟩

/-- The shape relations of the takes' range tests. -/
theorem maskFacts : Bce.MaskFacts :=
  ⟨Facts₀.bcast_S1_S1x1_1, Facts₀.bcast_S1x1_S1048576x1_0_1, Facts₀.reducesTo_S1048576x1_S1048576_d1⟩

variable {F : FTy → Type} [FloatOps F]

/-- The take of `disc`'s rows at the item indices. -/
def takeDisc (disc : FVec F S100000x64 .f32) (i : IVec S1048576 32) : FVec F S1048576x64 .f32 :=
  Bce.takeFill hostFacts maskFacts gather_S100000x64_S1048576x1_S1048576x64_1_0_n_n_0_1_164 Facts₀.bcast_S1048576_S1048576x64_0 Facts₀.bcast_S_S1048576x64 100000#32 99999#32 disc i
/-- The take of `theta`'s rows at the user indices. -/
def takeTheta (theta : FVec F S1000000x64 .f32) (u : IVec S1048576 32) : FVec F S1048576x64 .f32 :=
  Bce.takeFill hostFacts maskFacts gather_S1000000x64_S1048576x1_S1048576x64_1_0_n_n_0_1_164 Facts₀.bcast_S1048576_S1048576x64_0 Facts₀.bcast_S_S1048576x64 1000000#32 999999#32 theta u
/-- The take of `diff`'s entries at the item indices. -/
def takeDiff (diff : FVec F S100000x1 .f32) (i : IVec S1048576 32) : FVec F S1048576x1 .f32 :=
  Bce.takeFill hostFacts maskFacts gather_S100000x1_S1048576x1_S1048576x1_1_0_n_n_0_1_11 Facts₀.bcast_S1048576_S1048576x1_0 Facts₀.bcast_S_S1048576x1 100000#32 99999#32 diff i

/-- The logits as the kernel's program computes them, from the argument arrays. -/
def xK (u i : IVec S1048576 32) (diff : FVec F S100000x1 .f32) (disc : FVec F S100000x64 .f32) (theta : FVec F S1000000x64 .f32) :
    FVec F S1048576x1 .f32 :=
  Bce.logits hostFacts (takeDisc disc i) (takeTheta theta u) (takeDiff diff i)

/-- Lines run one stretch after another. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- A value carried into a buffer's own type and back is the value. -/
theorem ofBuf_toBuf {Val : EltTy → Type} {T : BufTy} (x : TRef sig T) (v : T.Contents Val) : x.ofBuf (x.toBuf v) = v := by
  unfold TRef.ofBuf TRef.toBuf
  rw [cast_cast, cast_eq]

/-- A stretch leaves a buffer none of its lines writes as it found it. -/
local macro "not_written" : tactic =>
  `(tactic| (
    refine StableHlo.after_of_forall_not_mem _ _ (List.forall_iff_forall_mem.mp ?_)
    simp only [hostOps0, hostOps0_1, hostOps0_2, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))

/-! ## The last stretch: the inner products, the sum with the entries, the labels, the re-laying -/

theorem last_x (W : Valuation τ sig (Elt F)) :
    StableHlo.after hostOps0_3 W (Proc.devRef .tc main_v9)
      = shapeCast S8192x128 (Bce.logits hostFacts (W (Proc.devRef .tc main_v0)) (W (Proc.devRef .tc main_v1)) (W (Proc.devRef .tc main_v2)))
          Facts₀.shapeCasts_S1048576x1_S8192x128 := by
  simp only [hostOps0_3]
  after_results_simp
  rfl

theorem last_s (W : Valuation τ sig (Elt F)) :
    StableHlo.after hostOps0_3 W (Proc.devRef .tc main_v10)
      = shapeCast S8192x128 (Bce.labels (F := F) hostFacts (W (Proc.devRef .tc main_arg2))) Facts₀.shapeCasts_S1048576x1_S8192x128 := by
  simp only [hostOps0_3]
  after_results_simp
  rfl

/-! ## The three takes, one stretch each -/

theorem take_disc_typed (W : Valuation τ sig (Elt F)) :
    (TRef.of (T := ⟨S1048576x64, .f32⟩) main_v0).ofBuf (StableHlo.after hostOps0 W (Proc.devRef .tc main_v0))
      = takeDisc (W (Proc.devRef .tc main_arg4)) (W (Proc.devRef .tc main_arg1)) := by
  simp only [hostOps0]
  after_results_simp
  simp only [ofBuf_toBuf]
  unfold takeDisc Bce.takeFill Bce.inRange Bce.colIdx Bce.wrapIdx
  rfl

theorem take_disc (W : Valuation τ sig (Elt F)) :
    StableHlo.after hostOps0 W (Proc.devRef .tc main_v0) = takeDisc (W (Proc.devRef .tc main_arg4)) (W (Proc.devRef .tc main_arg1)) :=
  take_disc_typed W

theorem take_theta_typed (W : Valuation τ sig (Elt F)) :
    (TRef.of (T := ⟨S1048576x64, .f32⟩) main_v1).ofBuf (StableHlo.after hostOps0_1 W (Proc.devRef .tc main_v1))
      = takeTheta (W (Proc.devRef .tc main_arg5)) (W (Proc.devRef .tc main_arg0)) := by
  simp only [hostOps0_1]
  after_results_simp
  simp only [ofBuf_toBuf]
  unfold takeTheta Bce.takeFill Bce.inRange Bce.colIdx Bce.wrapIdx
  rfl

theorem take_theta (W : Valuation τ sig (Elt F)) :
    StableHlo.after hostOps0_1 W (Proc.devRef .tc main_v1) = takeTheta (W (Proc.devRef .tc main_arg5)) (W (Proc.devRef .tc main_arg0)) :=
  take_theta_typed W

theorem take_diff_typed (W : Valuation τ sig (Elt F)) :
    (TRef.of (T := ⟨S1048576x1, .f32⟩) main_v2).ofBuf (StableHlo.after hostOps0_2 W (Proc.devRef .tc main_v2))
      = takeDiff (W (Proc.devRef .tc main_arg3)) (W (Proc.devRef .tc main_arg1)) := by
  simp only [hostOps0_2]
  after_results_simp
  simp only [ofBuf_toBuf]
  unfold takeDiff Bce.takeFill Bce.inRange Bce.colIdx Bce.wrapIdx
  rfl

theorem take_diff (W : Valuation τ sig (Elt F)) :
    StableHlo.after hostOps0_2 W (Proc.devRef .tc main_v2) = takeDiff (W (Proc.devRef .tc main_arg3)) (W (Proc.devRef .tc main_arg1)) :=
  take_diff_typed W

/-! ## What each take's stretch leaves alone -/

theorem keep0_arg0 (W : Valuation τ sig (Elt F)) : StableHlo.after hostOps0 W (Proc.devRef .tc main_arg0) = W (Proc.devRef .tc main_arg0) := by not_written
theorem keep0_arg1 (W : Valuation τ sig (Elt F)) : StableHlo.after hostOps0 W (Proc.devRef .tc main_arg1) = W (Proc.devRef .tc main_arg1) := by not_written
theorem keep0_arg2 (W : Valuation τ sig (Elt F)) : StableHlo.after hostOps0 W (Proc.devRef .tc main_arg2) = W (Proc.devRef .tc main_arg2) := by not_written
theorem keep0_arg3 (W : Valuation τ sig (Elt F)) : StableHlo.after hostOps0 W (Proc.devRef .tc main_arg3) = W (Proc.devRef .tc main_arg3) := by not_written
theorem keep0_arg5 (W : Valuation τ sig (Elt F)) : StableHlo.after hostOps0 W (Proc.devRef .tc main_arg5) = W (Proc.devRef .tc main_arg5) := by not_written
theorem keep1_arg1 (W : Valuation τ sig (Elt F)) : StableHlo.after hostOps0_1 W (Proc.devRef .tc main_arg1) = W (Proc.devRef .tc main_arg1) := by not_written
theorem keep1_arg2 (W : Valuation τ sig (Elt F)) : StableHlo.after hostOps0_1 W (Proc.devRef .tc main_arg2) = W (Proc.devRef .tc main_arg2) := by not_written
theorem keep1_arg3 (W : Valuation τ sig (Elt F)) : StableHlo.after hostOps0_1 W (Proc.devRef .tc main_arg3) = W (Proc.devRef .tc main_arg3) := by not_written
theorem keep1_v0 (W : Valuation τ sig (Elt F)) : StableHlo.after hostOps0_1 W (Proc.devRef .tc main_v0) = W (Proc.devRef .tc main_v0) := by not_written
theorem keep2_arg2 (W : Valuation τ sig (Elt F)) : StableHlo.after hostOps0_2 W (Proc.devRef .tc main_arg2) = W (Proc.devRef .tc main_arg2) := by not_written
theorem keep2_v0 (W : Valuation τ sig (Elt F)) : StableHlo.after hostOps0_2 W (Proc.devRef .tc main_v0) = W (Proc.devRef .tc main_v0) := by not_written
theorem keep2_v1 (W : Valuation τ sig (Elt F)) : StableHlo.after hostOps0_2 W (Proc.devRef .tc main_v1) = W (Proc.devRef .tc main_v1) := by not_written

/-! ## The whole prefix -/

/-- The kernel's first window reads the logits, re-laid as 8192 × 128. -/
theorem prefix_x (W : Valuation τ sig (Elt F)) :
    StableHlo.after (List.flatten [hostOps0, hostOps0_1, hostOps0_2, hostOps0_3]) W (Proc.devRef .tc main_v9)
      = shapeCast S8192x128 (xK (W (Proc.devRef .tc main_arg0)) (W (Proc.devRef .tc main_arg1)) (W (Proc.devRef .tc main_arg3))
          (W (Proc.devRef .tc main_arg4)) (W (Proc.devRef .tc main_arg5))) Facts₀.shapeCasts_S1048576x1_S8192x128 := by
  rw [show List.flatten [hostOps0, hostOps0_1, hostOps0_2, hostOps0_3] = hostOps0 ++ (hostOps0_1 ++ (hostOps0_2 ++ hostOps0_3)) from by
    simp only [List.flatten_cons, List.flatten_nil, List.append_nil]]
  rw [after_append, after_append, after_append, last_x, keep2_v0, keep1_v0, take_disc, keep2_v1, take_theta, keep0_arg5, keep0_arg0,
    take_diff, keep1_arg3, keep0_arg3, keep1_arg1, keep0_arg1]
  rfl

/-- Its second window reads the labels, re-laid the same way. -/
theorem prefix_s (W : Valuation τ sig (Elt F)) :
    StableHlo.after (List.flatten [hostOps0, hostOps0_1, hostOps0_2, hostOps0_3]) W (Proc.devRef .tc main_v10)
      = shapeCast S8192x128 (Bce.labels (F := F) hostFacts (W (Proc.devRef .tc main_arg2))) Facts₀.shapeCasts_S1048576x1_S8192x128 := by
  rw [show List.flatten [hostOps0, hostOps0_1, hostOps0_2, hostOps0_3] = hostOps0 ++ (hostOps0_1 ++ (hostOps0_2 ++ hostOps0_3)) from by
    simp only [List.flatten_cons, List.flatten_nil, List.append_nil]]
  rw [after_append, after_append, after_append, last_s, keep2_arg2, keep1_arg2, keep0_arg2]

end Cert.KernelIdeal.HostValue

end
-- ==== Proof.Spec.lean ====
/-
  The mathematics both programs compute, on the extended reals.

  For one (user, item) pair with logit `x` and label `s` the log-likelihood is
  `s · log σ(x) + (1 − s) · log σ(−x)`, with `log σ(x) = −softplus(−x)` and
  `softplus(y) = max(y, 0) + log1p(exp(−|y|))`. The loss is minus the mean of these over all pairs.

  The kernel lays the 1048576 pairs out as 8192 rows of 128 lanes. Output row `r` of its 16 × 128 result
  (core `r / 8`, sublane `r % 8`) adds, over the core's four steps `b` and the 128 sublane groups `g` of a
  1024-row block, the entries of row `((r / 8) · 4 + b) · 1024 + g · 8 + r % 8`. Those rows are each of the 8192
  rows exactly once (`regroup`), so the 16 × 128 partial sums add up to the sum over all pairs.
-/
import Idealize.ShloMosaic.PureOps.Ideal
import Idealize.ShloMosaic.PureOps.Ideal.Laws
import Idealize.ShloMosaic.Lib.ValueIdx

noncomputable section

namespace Cert.Bce

open Idealize.ShloMosaic

/-- `softplus(y) = max(y, 0) + log1p(exp(−|y|))`, with `|y| = max(y, −y)`. -/
def softplus (y : EReal) : EReal := max y 0 + Ideal.log1p (Ideal.exp (-(max y (-y))))

/-- `log σ(x) = −softplus(−x)`. -/
def logSig (x : EReal) : EReal := -softplus (-x)

/-- One pair's log-likelihood `s · log σ(x) + (1 − s) · log σ(−x)`; the `1` is the f32 word for one. -/
def term (x s : EReal) : EReal := s * logSig x + (Ideal.ofBits .f32 0x3F800000#32 - s) * logSig (-x)

/-- The row of the 8192 × 128 layout that output row `r` reads at step `b`, sublane group `g`. -/
def rowOf (r : Fin 16) (b : Fin 4) (g : Fin 128) : Fin 8192 :=
  ⟨((r.val / 8) * 4 + b.val) * 1024 + g.val * 8 + r.val % 8, by omega⟩

/-- (output row, step, group) ↦ row is a bijection onto the 8192 rows. -/
def rowEquiv : Fin 16 × Fin 4 × Fin 128 ≃ Fin 8192 where
  toFun p := rowOf p.1 p.2.1 p.2.2
  invFun R := (⟨(R.val / 4096) * 8 + R.val % 8, by omega⟩, ⟨(R.val / 1024) % 4, by omega⟩, ⟨(R.val % 1024) / 8, by omega⟩)
  left_inv := by
    rintro ⟨⟨r, hr⟩, ⟨b, hb⟩, ⟨g, hg⟩⟩
    simp only [rowOf, Prod.mk.injEq, Fin.mk.injEq]
    refine ⟨?_, ?_, ?_⟩ <;> omega
  right_inv := by
    rintro ⟨R, hR⟩
    simp only [rowOf, Fin.mk.injEq]
    omega

/-- Summing over output rows, steps and groups is summing over all rows. -/
theorem regroup {M : Type*} [AddCommMonoid M] (f : Fin 8192 → M) :
    ∑ r : Fin 16, ∑ b : Fin 4, ∑ g : Fin 128, f (rowOf r b g) = ∑ R : Fin 8192, f R := by
  rw [← Equiv.sum_comp rowEquiv f, Fintype.sum_prod_type]
  refine Finset.sum_congr rfl fun r _ => ?_
  rw [Fintype.sum_prod_type]
  rfl

end Cert.Bce

end
-- ==== Proof.KernelBody.lean ====
/-
  What one run of the kernel body leaves in its 8 × 128 output block, entry by entry.

  The body forms the log-likelihood of each of its 1024 × 128 pairs, splits the rows into 128 groups of 8 sublanes and
  adds the groups; at a core's first step it adds that onto zero, at a later step onto what the step before left.
-/
import proofs.«401049_j455266533950_3_alg».proof.Proof.Gen.KernelIdeal.Frame
import proofs.«401049_j455266533950_3_alg».proof.Proof.Spec
import Idealize.ShloMosaic.Lib.Pipeline.Value
import Idealize.ShloMosaic.Lib.Tactic

set_option maxRecDepth 16384

noncomputable section

namespace Cert.KernelIdeal.BodyValue

open Idealize.ShloMosaic Idealize.ShloMosaic.TcCoe Idealize.SL.Sem Idealize.ShloMosaic.ValueIdx
open Idealize.ShloMosaic.Tactic
open Cert.KernelIdeal Cert.KernelIdeal.Gen

/-- Row `g · 8 + p` of a block: sublane `p` of group `g`. -/
def groupRow (g : Fin 128) (p : Fin 8) : Fin 1024 := ⟨g.val * 8 + p.val, by omega⟩

/-! ## The block the run leaves, as the payload of its last store (any float values) -/

section AnyValues
variable {F : FTy → Type} [FloatOps F]

private theorem hz : (![0, 0] : Fin 2 → Nat) = fun _ => 0 := funext fun a => by fin_cases a <;> rfl

/-- A core's first step: the last store covers the block, and the accumulator it loads is the zero block stored just
    before. -/
private theorem out_A_eq (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S8x128 .f32) (harg4 : arg4.IsWhole)
    (hc0 : cond0_0 i) (x0 x1 : Vec F S1024x128 .f32) :
    out0_A_2 c i arg2 harg2 arg3 harg3 arg4 harg4 hc0 x0 x1
      = k0_pay1 (k0_pay5 x0 x1) (k0_pay6 x1) (k0_pay8 x0) (k0_pay10 x0) (k0_pay11 x0) (k0_pay12 x0) (k0_pay2 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, View.ld_unit_zero (S := S1024x128) hz]

/-- A later step: the one store covers the block, and the accumulator it loads is what the step before left. -/
private theorem out_B_eq (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S8x128 .f32) (harg4 : arg4.IsWhole)
    (hc0 : ¬cond0_0 i) (x0 x1 : Vec F S1024x128 .f32) (xo2 : Vec F S8x128 .f32) :
    out0_B_2 c i arg2 harg2 arg3 harg3 arg4 harg4 hc0 x0 x1 xo2
      = k0_pay1 (k0_pay5 x0 x1) (k0_pay6 x1) (k0_pay8 x0) (k0_pay10 x0) (k0_pay11 x0) (k0_pay12 x0) xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz]
  simp only [View.readAt_eq_ld, harg2.read_unread, harg3.read_unread, harg4.read_unread,
    View.ld_unit_zero (S := S1024x128) hz, View.ld_unit_zero (S := S8x128) hz]

end AnyValues

/-! ## One pair: the body's spelling of `log σ` on the extended reals -/

section Point

/-- `a ≠ a` never holds, so the comparison `one` of a value with itself is the zero bit. -/
private theorem cmp_one_self (a : EReal) : Ideal.cmp .one a a = 0#1 := by
  simp [Ideal.cmp]

/-- The body's softplus: the select on `y − 0 ≠ y − 0` takes its last operand, `y − 0 = y` and `0 − a = −a`. -/
private theorem softplus_spelt (y : EReal) :
    Scalar.select (Ideal.cmp .one (y - 0) (y - 0)) (y + 0)
        (max y 0 + Ideal.log1p (Ideal.exp (0 - max (y - 0) (-(y - 0))))) = Bce.softplus y := by
  rw [cmp_one_self, select_zero, sub_zero, zero_sub]
  rfl

variable {s : Shape} {φ : FTy}

private theorem exp_at (a : FVec Ideal s φ) (i : s.Idx) : exp a i = Ideal.exp (a i) := rfl
private theorem log1p_at (a : FVec Ideal s φ) (i : s.Idx) : log1p a i = Ideal.log1p (a i) := rfl
private theorem absf_at (a : FVec Ideal s φ) (i : s.Idx) : absf a i = max (a i) (-(a i)) := rfl
/-- The f32 word of all zero bits is the extended real `0`. -/
private theorem zero_word : Scalar.ofBits (F := Ideal) .f32 0x00000000#32 = (0 : EReal) := Ideal.ofBits_zero_f32

end Point

/-! ## The array of per-pair terms, read at an entry -/

section Summand

/-- The two loaded blocks pass through a cast to their own shape. -/
private theorem pay3_id (x : S1024x128.Idx → EReal) : k0_pay3 (F := Ideal) x = x := shapeCast_self _ _
private theorem pay4_id (x : S1024x128.Idx → EReal) : k0_pay4 (F := Ideal) x = x := shapeCast_self _ _

/-- `s · log σ(x)`, entry by entry. -/
private theorem pay5_at (x0 x1 : S1024x128.Idx → EReal) (j : S1024x128.Idx) :
    k0_pay5 (F := Ideal) x0 x1 j = x1 j * Bce.logSig (x0 j) := by
  unfold k0_pay5
  rw [pay3_id, pay4_id]
  simp only [mulf_apply, subf_apply, addf_apply, maximumf_apply, select_apply, cmpf_apply, broadcast_apply,
    exp_at, log1p_at, absf_at, zero_word, Ideal.cmpf_def]
  rw [softplus_spelt]
  simp only [zero_sub]
  rfl

/-- The array the body sums: `s · log σ(x) + (1 − s) · log σ(−x)` of the two blocks, as the body spells it over its
    named pieces. -/
private def summand (x0 x1 : S1024x128.Idx → EReal) : FVec Ideal S1024x128 .f32 :=
  addf (k0_pay5 x0 x1) (mulf (k0_pay6 x1) (subf (broadcast S1024x128 (Scalar.ofBits .f32 0x00000000#32))
    (select (k0_pay10 (F := Ideal) x0) (k0_pay11 x0) (addf (k0_pay8 x0) (log1p (exp (k0_pay12 x0)))))))

/-- Its entry at a pair is that pair's term. -/
private theorem summand_at (x0 x1 : S1024x128.Idx → EReal) (j : S1024x128.Idx) :
    summand x0 x1 j = Bce.term (x0 j) (x1 j) := by
  unfold summand
  simp only [addf_apply, mulf_apply, subf_apply, select_apply, broadcast_apply, exp_at, log1p_at, pay5_at]
  unfold k0_pay6 k0_pay10 k0_pay11 k0_pay8 k0_pay12 k0_pay9 k0_pay7
  rw [pay3_id, pay4_id]
  simp only [mulf_apply, subf_apply, addf_apply, maximumf_apply, select_apply, cmpf_apply, broadcast_apply,
    absf_at, zero_word, Ideal.cmpf_def]
  rw [softplus_spelt]
  simp only [zero_sub]
  rfl

end Summand

/-! ## The groups' sum, read at an entry -/

section GroupSum

/-- The rows re-laid as 128 groups of 8 sublanes and the groups added: entry `(p, q)` is the sum over the groups `g` of
    entry `(g · 8 + p, q)`: the same row-major position. -/
private theorem groupSum_at (w : FVec Ideal S1024x128 .f32) (p : Fin 8) (q : Fin 128) :
    multiReduction (F := Ideal) .add [0] S8x128 (shapeCast S128x8x128 w shapeCasts_S1024x128_S128x8x128) 0x00000000#32
        reduces_S128x8x128_S8x128 (.inl rfl) rfl (ix2 p q)
      = ∑ g : Fin 128, w (ix2 (groupRow g p) q) := by
  refine (Ideal.multiReduction_add_single _ _ _ _ _ _).trans ?_
  refine Finset.sum_congr rfl fun g _ => ?_
  refine shapeCast_apply w _ _ _ ?_
  rw [Shape.rowMajor_val_two, Shape.rowMajor_val_three]
  rfl

/-- The whole payload at an entry: the loaded accumulator plus the groups' sum of the summed array. -/
private theorem pay1_at (v25 v27 v33 : FVec Ideal S1024x128 .f32) (v36 : IVec S1024x128 1) (v38 v41 : FVec Ideal S1024x128 .f32)
    (v52 : S8x128.Idx → EReal) (p : Fin 8) (q : Fin 128) :
    k0_pay1 (F := Ideal) v25 v27 v33 v36 v38 v41 v52 (ix2 p q)
      = v52 (ix2 p q) + ∑ g : Fin 128,
          addf v25 (mulf v27 (subf (broadcast S1024x128 (Scalar.ofBits .f32 0x00000000#32))
            (select v36 v38 (addf v33 (log1p (exp v41)))))) (ix2 (groupRow g p) q) := by
  unfold k0_pay1
  refine (addf_apply _ _ _).trans ?_
  rw [shapeCast_self]
  exact congrArg (v52 (ix2 p q) + ·) (groupSum_at _ p q)

end GroupSum

/-- A core's first step: zero plus the groups' sum. -/
theorem out_A_apply (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S8x128 .f32) (harg4 : arg4.IsWhole)
    (hc0 : cond0_0 i) (x0 x1 : S1024x128.Idx → EReal) (p : Fin 8) (q : Fin 128) :
    out0_A_2 (F := Ideal) c i arg2 harg2 arg3 harg3 arg4 harg4 hc0 x0 x1 (ix2 p q)
      = 0 + ∑ g : Fin 128, Bce.term (x0 (ix2 (groupRow g p) q)) (x1 (ix2 (groupRow g p) q)) := by
  refine (congrFun (out_A_eq (F := Ideal) c i arg2 harg2 arg3 harg3 arg4 harg4 hc0 x0 x1) (ix2 p q)).trans ?_
  refine (pay1_at _ _ _ _ _ _ _ p q).trans ?_
  exact congrArg₂ (· + ·) zero_word (Finset.sum_congr rfl fun g _ => summand_at x0 x1 (ix2 (groupRow g p) q))

/-- A later step: what the step before left plus the groups' sum. -/
theorem out_B_apply (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S8x128 .f32) (harg4 : arg4.IsWhole)
    (hc0 : ¬cond0_0 i) (x0 x1 : S1024x128.Idx → EReal) (xo2 : S8x128.Idx → EReal) (p : Fin 8) (q : Fin 128) :
    out0_B_2 (F := Ideal) c i arg2 harg2 arg3 harg3 arg4 harg4 hc0 x0 x1 xo2 (ix2 p q)
      = xo2 (ix2 p q) + ∑ g : Fin 128, Bce.term (x0 (ix2 (groupRow g p) q)) (x1 (ix2 (groupRow g p) q)) := by
  refine (congrFun (out_B_eq (F := Ideal) c i arg2 harg2 arg3 harg3 arg4 harg4 hc0 x0 x1 xo2) (ix2 p q)).trans ?_
  refine (pay1_at _ _ _ _ _ _ _ p q).trans ?_
  exact congrArg (xo2 (ix2 p q) + ·) (Finset.sum_congr rfl fun g _ => summand_at x0 x1 (ix2 (groupRow g p) q))

end Cert.KernelIdeal.BodyValue

end
-- ==== Proof.BlockSum.lean ====
/-
  The kernel's 16 × 128 partial sums as a function of the two 8192 × 128 arrays it reads.

  Grid point `t` (core `t / 4`, step `t % 4`) reads rows `t · 1024 … t · 1024 + 1023`. It splits them into 128 groups of 8
  sublanes and adds the groups, so at sublane `p`, lane `q` it contributes the sum over `g` of the pair at row
  `t · 1024 + g · 8 + p`, lane `q` (`stepSum`). A core starts its 8 × 128 block at zero and adds its four steps in
  order (`coreSum`); the result array holds core 0's block over core 1's (`blockSum`).
-/
import proofs.«401049_j455266533950_3_alg».proof.Proof.Spec
import proofs.«401049_j455266533950_3_alg».proof.Proof.HostFns

noncomputable section

namespace Cert.Bce

open Idealize.ShloMosaic Idealize.ShloMosaic.ValueIdx

/-- Row `t · 1024 + g · 8 + p` of the 8192. -/
def stepRow (t : Fin 8) (g : Fin 128) (p : Fin 8) : Fin 8192 := ⟨t.val * 1024 + g.val * 8 + p.val, by omega⟩

/-- What grid point `t` adds at sublane `p`, lane `q`: its 128 sublane groups' log-likelihoods there. -/
def stepSum (X S : SR.Idx → EReal) (t : Fin 8) (p : Fin 8) (q : Fin 128) : EReal :=
  ∑ g : Fin 128, term (X (ix2 (stepRow t g p) q)) (S (ix2 (stepRow t g p) q))

/-- Core `c`'s block at sublane `p`, lane `q`: zero, then its four steps added in order. -/
def coreSum (X S : SR.Idx → EReal) (c : Fin 2) (p : Fin 8) (q : Fin 128) : EReal :=
  (((0 + stepSum X S ⟨4 * c.val, by omega⟩ p q) + stepSum X S ⟨4 * c.val + 1, by omega⟩ p q)
    + stepSum X S ⟨4 * c.val + 2, by omega⟩ p q) + stepSum X S ⟨4 * c.val + 3, by omega⟩ p q

/-- The kernel's result array: row `r` is core `r / 8`'s sublane `r % 8`. -/
def blockSum (X S : SR.Idx → EReal) : SO.Idx → EReal := fun j =>
  coreSum X S ⟨(j 0).val / 8, by have := idx2_lt0 j; omega⟩ ⟨(j 0).val % 8, by omega⟩ (j 1)

end Cert.Bce

end
-- ==== Proof.KernelValue.lean ====
/-
  What each grid point adds to its core's block of partial sums.

  The kernel's two windows read 1024-row blocks of the re-laid logits and labels: point `t` of the eight reads rows
  `t · 1024 …` of each. At a core's first step (`t` a multiple of 4) the output block becomes zero plus the point's
  group sums; at a later step, what the step before left plus them.
-/
import proofs.«401049_j455266533950_3_alg».proof.Proof.KernelHost
import proofs.«401049_j455266533950_3_alg».proof.Proof.KernelBody
import proofs.«401049_j455266533950_3_alg».proof.Proof.BlockSum
import Idealize.ShloMosaic.Lib.Pipeline.Value

set_option maxRecDepth 16384

noncomputable section

namespace Cert.KernelIdeal.FinalValue

open Idealize.ShloMosaic Idealize.ShloMosaic.TcCoe Idealize.SL.Sem Idealize.ShloMosaic.ValueIdx
open Idealize.ShloMosaic.Pipeline (Dat)
open Cert.KernelIdeal Cert.KernelIdeal.Gen

-- the arrays the launch finds are the host lines' composition applied to the memory; only that they are functions of the
-- memory is used below
attribute [local irreducible] StableHlo.after

variable (m : (ℓ : Loc nD τ sig) → Buf (Elt Ideal) ℓ) (ρ : Dev nD → PrngReg)

/-- The re-laid logits and labels as the launch finds them: the arrays its first two windows stage. -/
abbrev xarr (c : Dev nD) : S8192x128.Idx → EReal := V (F := Ideal) m c (Pipeline.arrRef spec0 (0 : Fin cfg0.W))
abbrev sarr (c : Dev nD) : S8192x128.Idx → EReal := V (F := Ideal) m c (Pipeline.arrRef spec0 (1 : Fin cfg0.W))
/-- The blocks of them point `t` reads. -/
abbrev xblk (c : Dev nD) (t : Fin cfg0.N) : S1024x128.Idx → EReal := iblk (F := Ideal) m c 0 t
abbrev sblk (c : Dev nD) (t : Fin cfg0.N) : S1024x128.Idx → EReal := iblk (F := Ideal) m c 1 t

theorem N8 : cfg0.N = 8 := N_0

/-- A point as a number below eight. -/
def t8 (t : Fin cfg0.N) : Fin 8 := ⟨t.val, lt_of_lt_of_eq t.isLt N8⟩

theorem t8_lt (t : Fin cfg0.N) : t.val < 8 := (t8 t).isLt

/-- The index maps over the grid: the inputs' blocks move with the point, the output's with the core. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 4 ∧ win0_2.index t (1 : Fin 2) = 0 :=
  (by decide +kernel : ∀ t : Fin grid0.N, _)

/-- Row `a`, lane `q` of point `t`'s block of ANY array the first window stages is row `t · 1024 + a` of it. -/
theorem read_in0 (c : Dev nD) (A : Buf (Elt Ideal) ((cfg0.win 0).arr.view.loc (c.tc : Thread nD τ))) (t : Fin cfg0.N)
    (a : Fin 1024) (q : Fin 128) :
    ((cfg0.win 0).blk t).view.read (Elt Ideal) A (ix2 a q)
      = A (ix2 (⟨t.val * 1024 + a.val, by have := t8_lt t; omega⟩ : Fin 8192) q) := by
  rw [View.read_apply]
  show A _ = A _
  refine congrArg A ?_
  funext d
  apply Fin.ext
  match d with
  | ⟨0, _⟩ => show win0_0.index t (0 : Fin 2) * 1024 + 1 * a.val = t.val * 1024 + a.val; rw [(idx_in t).1]; omega
  | ⟨1, _⟩ => show win0_0.index t (1 : Fin 2) * 128 + 1 * q.val = q.val; rw [(idx_in t).2.1]; omega

/-- The same for the second window. -/
theorem read_in1 (c : Dev nD) (A : Buf (Elt Ideal) ((cfg0.win 1).arr.view.loc (c.tc : Thread nD τ))) (t : Fin cfg0.N)
    (a : Fin 1024) (q : Fin 128) :
    ((cfg0.win 1).blk t).view.read (Elt Ideal) A (ix2 a q)
      = A (ix2 (⟨t.val * 1024 + a.val, by have := t8_lt t; omega⟩ : Fin 8192) q) := by
  rw [View.read_apply]
  show A _ = A _
  refine congrArg A ?_
  funext d
  apply Fin.ext
  match d with
  | ⟨0, _⟩ => show win0_1.index t (0 : Fin 2) * 1024 + 1 * a.val = t.val * 1024 + a.val; rw [(idx_in t).2.2.1]; omega
  | ⟨1, _⟩ => show win0_1.index t (1 : Fin 2) * 128 + 1 * q.val = q.val; rw [(idx_in t).2.2.2.1]; omega

/-- Point `t`'s block of the logits at row `a`, lane `q`. -/
theorem xblk_apply (c : Dev nD) (t : Fin cfg0.N) (a : Fin 1024) (q : Fin 128) :
    xblk m c t (ix2 a q) = xarr m c (ix2 (⟨t.val * 1024 + a.val, by have := t8_lt t; omega⟩ : Fin 8192) q) :=
  read_in0 c (V (F := Ideal) m c (Pipeline.arrRef spec0 (0 : Fin cfg0.W))) t a q

/-- Point `t`'s block of the labels at row `a`, lane `q`. -/
theorem sblk_apply (c : Dev nD) (t : Fin cfg0.N) (a : Fin 1024) (q : Fin 128) :
    sblk m c t (ix2 a q) = sarr m c (ix2 (⟨t.val * 1024 + a.val, by have := t8_lt t; omega⟩ : Fin 8192) q) :=
  read_in1 c (V (F := Ideal) m c (Pipeline.arrRef spec0 (1 : Fin cfg0.W))) t a q

/-- The groups' sum over point `t`'s blocks is that point's step sum over the arrays. -/
theorem groups_eq (c : Dev nD) (t : Fin cfg0.N) (p : Fin 8) (q : Fin 128) :
    (∑ g : Fin 128, Bce.term (xblk m c t (ix2 (BodyValue.groupRow g p) q)) (sblk m c t (ix2 (BodyValue.groupRow g p) q)))
      = Bce.stepSum (xarr m c) (sarr m c) (t8 t) p q := by
  unfold Bce.stepSum
  refine Finset.sum_congr rfl fun g _ => ?_
  rw [xblk_apply, sblk_apply]
  have e : (⟨t.val * 1024 + (BodyValue.groupRow g p).val, by have := t8_lt t; have := (BodyValue.groupRow g p).isLt; omega⟩ : Fin 8192)
      = Bce.stepRow (t8 t) g p := Fin.ext (by simp only [Bce.stepRow, BodyValue.groupRow, t8]; omega)
  rw [e]

/-- After a core's first step its block holds zero plus that step's sum. -/
theorem step_A (c : Dev nD) (t : Fin cfg0.N) (h0 : t.val % 4 = 0) (p : Fin 8) (q : Fin 128) :
    outsAt0 (F := Ideal) m c t.val t.isLt (ix2 p q) = 0 + Bce.stepSum (xarr m c) (sarr m c) (t8 t) p q := by
  rw [outsAt0_A m c t h0, ← groups_eq m c t p q]
  exact BodyValue.out_A_apply c (grid0.coords t) (ms0_0 t) (hs0_0 t) (ms0_1 t) (hs0_1 t) (ms0_2 t) (hs0_2 t) ((hcond0_0 t).mpr h0)
    (xblk m c t) (sblk m c t) p q

/-- After a later step it holds what the step before left plus that step's sum. -/
theorem step_B (c : Dev nD) (t : Fin cfg0.N) (h0 : ¬t.val % 4 = 0) (p : Fin 8) (q : Fin 128) :
    outsAt0 (F := Ideal) m c t.val t.isLt (ix2 p q)
      = outsAt0 (F := Ideal) m c (t.val - 1) (Nat.lt_of_le_of_lt (Nat.sub_le _ _) t.isLt) (ix2 p q) + Bce.stepSum (xarr m c) (sarr m c) (t8 t) p q := by
  rw [outsAt0_B m c t h0, ← groups_eq m c t p q]
  exact BodyValue.out_B_apply c (grid0.coords t) (ms0_0 t) (hs0_0 t) (ms0_1 t) (hs0_1 t) (ms0_2 t) (hs0_2 t) (fun h => h0 ((hcond0_0 t).mp h))
    (xblk m c t) (sblk m c t) (outsAt0 (F := Ideal) m c (t.val - 1) (Nat.lt_of_le_of_lt (Nat.sub_le _ _) t.isLt)) p q

end Cert.KernelIdeal.FinalValue

end
-- ==== Proof.KernelFinal.lean ====
/-
  The kernel's result array after the launch.

  A core's block is written back after its fourth step, when it holds zero plus the four steps' sums in order; the two
  written-back blocks tile the 16 × 128 result: row `r` belongs to core `r / 8`.
-/
import proofs.«401049_j455266533950_3_alg».proof.Proof.KernelValue

set_option maxRecDepth 16384

noncomputable section

namespace Cert.KernelIdeal.FinalValue

open Idealize.ShloMosaic Idealize.ShloMosaic.TcCoe Idealize.SL.Sem Idealize.ShloMosaic.ValueIdx
open Idealize.ShloMosaic.Pipeline (Dat)
open Cert.KernelIdeal Cert.KernelIdeal.Gen

attribute [local irreducible] StableHlo.after

variable (m : (ℓ : Loc nD τ sig) → Buf (Elt Ideal) ℓ) (ρ : Dev nD → PrngReg)

/-- After a core's fourth step its block holds the core's sum: the step lemmas chained back to the core's first step. -/
theorem outs_flush (c : Dev nD) (t : Fin cfg0.N) (h3 : t.val % 4 = 3) (y : S8x128.Idx) :
    outsAt0 (F := Ideal) m c t.val t.isLt y
      = Bce.coreSum (xarr m c) (sarr m c) ⟨t.val / 4, by have := t8_lt t; omega⟩ ⟨(y 0).val, idx2_lt0 y⟩ (y 1) := by
  obtain ⟨p, q, rfl⟩ : ∃ (p : Fin 8) (q : Fin 128), y = ix2 p q := ⟨y 0, y 1, eq_ix2 y⟩
  have ht8 : t.val < 8 := t8_lt t
  have hl1 : t.val - 1 < cfg0.N := Nat.lt_of_le_of_lt (Nat.sub_le _ _) t.isLt
  have hl2 : t.val - 1 - 1 < cfg0.N := Nat.lt_of_le_of_lt (Nat.sub_le _ _) hl1
  have hl3 : t.val - 1 - 1 - 1 < cfg0.N := Nat.lt_of_le_of_lt (Nat.sub_le _ _) hl2
  rw [step_B m c t (by omega) p q]
  rw [step_B m c ⟨t.val - 1, hl1⟩ (by show ¬(t.val - 1) % 4 = 0; omega) p q]
  rw [step_B m c ⟨t.val - 1 - 1, hl2⟩ (by show ¬(t.val - 1 - 1) % 4 = 0; omega) p q]
  rw [step_A m c ⟨t.val - 1 - 1 - 1, hl3⟩ (by show (t.val - 1 - 1 - 1) % 4 = 0; omega) p q]
  have e0 : t8 ⟨t.val - 1 - 1 - 1, hl3⟩ = (⟨4 * (t.val / 4), by omega⟩ : Fin 8) := Fin.ext (by simp only [t8]; omega)
  have e1 : t8 ⟨t.val - 1 - 1, hl2⟩ = (⟨4 * (t.val / 4) + 1, by omega⟩ : Fin 8) := Fin.ext (by simp only [t8]; omega)
  have e2 : t8 ⟨t.val - 1, hl1⟩ = (⟨4 * (t.val / 4) + 2, by omega⟩ : Fin 8) := Fin.ext (by simp only [t8]; omega)
  have e3 : t8 t = (⟨4 * (t.val / 4) + 3, by omega⟩ : Fin 8) := Fin.ext (by simp only [t8]; omega)
  rw [e0, e1, e2, e3]
  rfl

/-- Sublane `j₀`, lane `j₁` of point `t`'s block of ANY array the output window stages is row `(t / 4) · 8 + j₀` of it. -/
theorem read_out (c : Dev nD) (G : Buf (Elt Ideal) ((cfg0.win 2).arr.view.loc (c.tc : Thread nD τ))) (t : Fin cfg0.N)
    (j : S8x128.Idx) :
    ((cfg0.win 2).blk t).view.read (Elt Ideal) G j
      = G (ix2 (⟨t.val / 4 * 8 + (j 0).val, by have := t8_lt t; have := idx2_lt0 j; omega⟩ : Fin 16) (j 1)) := by
  rw [View.read_apply]
  show G _ = G _
  refine congrArg G ?_
  funext d
  apply Fin.ext
  match d with
  | ⟨0, _⟩ => show win0_2.index t (0 : Fin 2) * 8 + 1 * (j 0).val = t.val / 4 * 8 + (j 0).val; rw [(idx_in t).2.2.2.2.1]; omega
  | ⟨1, _⟩ => show win0_2.index t (1 : Fin 2) * 128 + 1 * (j 1).val = (j 1).val; rw [(idx_in t).2.2.2.2.2]; omega

/-- What a writing-back point writes back is its block of `blockSum`. -/
theorem flushed_eq (c : Dev nD) (t : Fin cfg0.N) (hf : (cfg0.win 2).flush t = true) :
    (dats (F := Ideal) m 0 c).flushed 2 t
      = ((cfg0.win 2).blk t).view.read (Elt Ideal) (Bce.blockSum (xarr m c) (sarr m c)) := by
  have h3 : t.val % 4 = 3 := (flush0_2 t).mp hf
  show (cfg0.win 2).cut (grid0.coords t) ((dats (F := Ideal) m 0 c).after 2 t) = _
  rw [after0_2]
  funext j
  rw [read_out c (Bce.blockSum (xarr m c) (sarr m c)) t j]
  refine (outs_flush m c t h3 j).trans ?_
  have hj0 : (j 0).val < 8 := idx2_lt0 j
  have ht8 : t.val < 8 := t8_lt t
  show _ = Bce.coreSum (xarr m c) (sarr m c) ⟨(t.val / 4 * 8 + (j 0).val) / 8, _⟩ ⟨(t.val / 4 * 8 + (j 0).val) % 8, _⟩ (j 1)
  congr 1
  · exact Fin.ext (by show t.val / 4 = (t.val / 4 * 8 + (j 0).val) / 8; omega)
  · exact Fin.ext (by show (j 0).val = (t.val / 4 * 8 + (j 0).val) % 8; omega)

/-- An index is in point `t`'s output block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v11).slice (win0_2.rect t)).set ↔ _
  rw [View.set_slice_whole, Rect.mem_set_unit]
  exact Iff.rfl

/-- Row `r` of the result is written back by the last step of core `r / 8`. -/
theorem cover (i : S16x128.Idx) : ∃ t : Fin cfg0.N, (cfg0.win 2).flush t = true ∧ i ∈ ((cfg0.win 2).blk t).view.set := by
  have h0 : (i 0).val < 16 := idx2_lt0 i
  have h1 : (i 1).val < 128 := idx2_lt1 i
  have hlt : 4 * ((i 0).val / 8) + 3 < cfg0.N := by rw [N8]; omega
  refine ⟨⟨4 * ((i 0).val / 8) + 3, hlt⟩, (flush0_2 _).mpr (by show (4 * ((i 0).val / 8) + 3) % 4 = 3; omega), ?_⟩
  rw [mem_blk]
  obtain ⟨-, -, -, -, e4, e5⟩ := idx_in ⟨4 * ((i 0).val / 8) + 3, hlt⟩
  intro a
  match a with
  | ⟨0, _⟩ =>
    show win0_2.index _ (0 : Fin 2) * 8 ≤ (i 0).val ∧ (i 0).val < win0_2.index _ (0 : Fin 2) * 8 + 8
    rw [e4]; dsimp only; omega
  | ⟨1, _⟩ =>
    show win0_2.index _ (1 : Fin 2) * 128 ≤ (i 1).val ∧ (i 1).val < win0_2.index _ (1 : Fin 2) * 128 + 128
    rw [e5]; omega

/-- The result array after the launch. -/
theorem final (c : Dev nD) : (dats (F := Ideal) m 0 c).arrAt 2 cfg0.N = Bce.blockSum (xarr m c) (sarr m c) :=
  (dats (F := Ideal) m 0 c).arrAt_eq_of_cover 2 (Bce.blockSum (xarr m c) (sarr m c)) (fun t hf => flushed_eq m c t hf) cover

end Cert.KernelIdeal.FinalValue

end
-- ==== Proof.KernelRun.lean ====
/-
  The kernel program's run, read: every execution ends with the result at the sum of the kernel's partial sums,
  negated and divided by the number of pairs, the partial sums being `blockSum` of the re-laid logits and labels of the
  argument arrays; the arguments end unchanged.
-/
import proofs.«401049_j455266533950_3_alg».proof.Proof.KernelFinal
import Idealize.ShloMosaic.Lib.StableHlo.Run

set_option maxRecDepth 16384

noncomputable section

namespace Cert.KernelIdeal.FinalValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

attribute [local irreducible] StableHlo.after

variable (m : (ℓ : Loc nD τ sig) → Buf (Elt Ideal) ℓ) (ρ : Dev nD → PrngReg)

/-- The arrays the first two windows stage are the buffers of the re-laid logits and labels. -/
theorem arr0 : Pipeline.arrRef spec0 (0 : Fin cfg0.W) = main_v9 := rfl
theorem arr1 : Pipeline.arrRef spec0 (1 : Fin cfg0.W) = main_v10 := rfl

/-- The launch's view of a buffer depends on the buffer only. -/
theorem V_heq (c : Dev nD) (r r' : Ref sig .tc) (h : r = r') : HEq (V (F := Ideal) m c r) (V (F := Ideal) m c r') := by
  subst h; rfl

/-- The first window's array is the re-laid logits of the argument arrays. -/
theorem xarr_eq (c : Dev nD) :
    xarr m c = shapeCast S8192x128 (HostValue.xK (F := Ideal) (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)))
      Facts₀.shapeCasts_S1048576x1_S8192x128 :=
  (eq_of_heq (V_heq m c _ _ arr0)).trans (HostValue.prefix_x (F := Ideal) (fun b => m (c, b)))

/-- The second window's array is the re-laid labels. -/
theorem sarr_eq (c : Dev nD) :
    sarr m c = shapeCast S8192x128 (Bce.labels (F := Ideal) HostValue.hostFacts (m ((c.tc : Thread nD τ).loc main_arg2)))
      Facts₀.shapeCasts_S1048576x1_S8192x128 :=
  (eq_of_heq (V_heq m c _ _ arr1)).trans (HostValue.prefix_s (F := Ideal) (fun b => m (c, b)))

/-- The kernel program's result as a function of the argument arrays. -/
def out (u i s : IVec S1048576 32) (diff : FVec Ideal S100000x1 .f32) (disc : FVec Ideal S100000x64 .f32) (theta : FVec Ideal S1000000x64 .f32) :
    FVec Ideal S_ .f32 :=
  Bce.kernelOut (F := Ideal) HostValue.hostFacts Facts₀.reducesTo_S16x128_S_d0_1
    (Bce.blockSum (shapeCast S8192x128 (HostValue.xK (F := Ideal) u i diff disc theta) Facts₀.shapeCasts_S1048576x1_S8192x128)
      (shapeCast S8192x128 (Bce.labels (F := Ideal) HostValue.hostFacts s) Facts₀.shapeCasts_S1048576x1_S8192x128))

/-- The lines after the launch: the partial sums added up, negated, divided. -/
theorem tail (c : Dev nD) :
    Pipeline.afterTail₀ cfgs (dats (F := Ideal) m) 0 (V0 m) [hostOps1] c main_v14
      = Bce.kernelOut (F := Ideal) HostValue.hostFacts Facts₀.reducesTo_S16x128_S_d0_1 (Bce.blockSum (xarr m c) (sarr m c)) := by
  unfold Pipeline.afterTail₀
  show StableHlo.after hostOps1 _ (Proc.devRef .tc main_v14) = _
  simp only [hostOps1]
  after_results
  rw [(Pipeline.withArrays_arr spec0 launch0.win.arr_inj c _ _ 2).trans (final m c)]
  rfl

/-- Every weakly fair execution of the kernel's program terminates with the result at `out` of the arguments, which
    end unchanged. -/
theorem run : θ_run (defs (F := Ideal)) (onTc (τ := τ) (main (F := Ideal))) ⟨m, fun _ => 0, ρ⟩ (fun r => ∀ c : Dev nD,
      r.2.mem ((c.tc : Thread nD τ).loc main_v14)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v14 (Pipeline.mem_restRefs_of main_v14 (by decide) (by decide))).trans (tail m c)).trans (by
        unfold out; rw [xarr_eq, sarr_eq]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.FinalValue

end
-- ==== Proof.RefRun.lean ====
/-
  The reference program's run: every execution ends with the result at minus the mean log-likelihood of the
  plainly gathered logits and the labels, the arguments unchanged.
-/
import proofs.«401049_j455266533950_3_alg».proof.Proof.Gen.ReferenceIdeal
import proofs.«401049_j455266533950_3_alg».proof.Proof.HostFns
import Idealize.ShloMosaic.Lib.StableHlo.Run

set_option maxRecDepth 16384

noncomputable section

namespace Cert.ReferenceIdeal.HandRun

open Idealize.ShloMosaic Idealize.ShloMosaic.TcCoe Idealize.SL.Sem Idealize.ShloMosaic.StableHlo
open Cert.ReferenceIdeal Cert.ReferenceIdeal.Gen

/-- The shape relations of the host lines, from the program's own. -/
theorem hostFacts : Bce.HostFacts :=
  ⟨Facts₀.bcast_S_S1048576, Facts₀.bcast_S1048576_S1048576x1_0, Facts₀.bcast_S_S1048576x1, Facts₀.h_S_,
    Facts₀.reducesTo_S1048576x64_S1048576_d1⟩

variable {F : FTy → Type} [FloatOps F]

/-- The logits as the reference computes them, from the argument arrays. -/
def xR (u i : IVec S1048576 32) (diff : FVec F S100000x1 .f32) (disc : FVec F S100000x64 .f32) (theta : FVec F S1000000x64 .f32) :
    FVec F S1048576x1 .f32 :=
  Bce.logits hostFacts
    (Bce.gatherRows hostFacts gather_S100000x64_S1048576x1_S1048576x64_1_0_n_n_0_1_164 100000#32 disc i)
    (Bce.gatherRows hostFacts gather_S1000000x64_S1048576x1_S1048576x64_1_0_n_n_0_1_164 1000000#32 theta u)
    (Bce.gatherRows hostFacts gather_S100000x1_S1048576x1_S1048576x1_1_0_n_n_0_1_11 100000#32 diff i)

/-- The reference's result as a function of the argument arrays. -/
def out (u i s : IVec S1048576 32) (diff : FVec F S100000x1 .f32) (disc : FVec F S100000x64 .f32) (theta : FVec F S1000000x64 .f32) :
    FVec F S_ .f32 :=
  Bce.refOut hostFacts Facts₀.reducesTo_S1048576x1_S_d0_1 (xR u i diff disc theta) (Bce.labels hostFacts s)

/-! ## The program as a list of operations

@main's seventy-eight operations in order, the two calls of @log_sigmoid (each of which calls @softplus) unfolded at
their sites over the calls' own buffers. The list is cut into six stretches, each ending at the values the later
stretches read. -/

/-- The logits `%24`: three times an index array is wrapped (an index below zero shifted up by the table's extent) and
    made a column, and the table's rows are gathered there; the `disc` rows and the `theta` rows are multiplied and
    summed along the row; the `diff` entry is added. -/
abbrev opsLogits : List (HloOp τ sig (Elt F)) :=
  [ nullary main_c (constantI S_ 32 0#32),
    unary main_c main_v0 (broadcastInDim S1048576 ![] bcast_S_S1048576),
    binary main_arg1 main_v0 main_v1 (cmpi .slt),
    nullary main_c_0 (constantI S_ 32 100000#32),
    unary main_c_0 main_v2 (broadcastInDim S1048576 ![] bcast_S_S1048576),
    binary main_arg1 main_v2 main_v3 addi,
    ternary main_v1 main_v3 main_arg1 main_v4 select,
    unary main_v4 main_v5 (broadcastInDim S1048576x1 ![0] bcast_S1048576_S1048576x1_0),
    binary main_arg4 main_v5 main_v6 (fun x i => Host.gather gather_S100000x64_S1048576x1_S1048576x64_1_0_n_n_0_1_164 x i),
    nullary main_c_1 (constantI S_ 32 0#32),
    unary main_c_1 main_v7 (broadcastInDim S1048576 ![] bcast_S_S1048576),
    binary main_arg0 main_v7 main_v8 (cmpi .slt),
    nullary main_c_2 (constantI S_ 32 1000000#32),
    unary main_c_2 main_v9 (broadcastInDim S1048576 ![] bcast_S_S1048576),
    binary main_arg0 main_v9 main_v10 addi,
    ternary main_v8 main_v10 main_arg0 main_v11 select,
    unary main_v11 main_v12 (broadcastInDim S1048576x1 ![0] bcast_S1048576_S1048576x1_0),
    binary main_arg5 main_v12 main_v13 (fun x i => Host.gather gather_S1000000x64_S1048576x1_S1048576x64_1_0_n_n_0_1_164 x i),
    binary main_v6 main_v13 main_v14 mulf,
    nullary main_cst (constant S_ .f32 0x00000000#32),
    binary main_v14 main_cst main_v15 (fun x v => Host.reduceAdd x v reducesTo_S1048576x64_S1048576_d1 h_S_),
    unary main_v15 main_v16 (broadcastInDim S1048576x1 ![0] bcast_S1048576_S1048576x1_0),
    nullary main_c_3 (constantI S_ 32 0#32),
    unary main_c_3 main_v17 (broadcastInDim S1048576 ![] bcast_S_S1048576),
    binary main_arg1 main_v17 main_v18 (cmpi .slt),
    nullary main_c_4 (constantI S_ 32 100000#32),
    unary main_c_4 main_v19 (broadcastInDim S1048576 ![] bcast_S_S1048576),
    binary main_arg1 main_v19 main_v20 addi,
    ternary main_v18 main_v20 main_arg1 main_v21 select,
    unary main_v21 main_v22 (broadcastInDim S1048576x1 ![0] bcast_S1048576_S1048576x1_0),
    binary main_arg3 main_v22 main_v23 (fun x i => Host.gather gather_S100000x1_S1048576x1_S1048576x1_1_0_n_n_0_1_11 x i),
    binary main_v16 main_v23 main_v24 addf ]

/-- The labels `%26`: the integers `s` converted and made a column. -/
abbrev opsLabels : List (HloOp τ sig (Elt F)) :=
  [ unary main_arg2 main_v25 (sitofp .f32),
    unary main_v25 main_v26 (broadcastInDim S1048576x1 ![0] bcast_S1048576_S1048576x1_0) ]

/-- `%27 = log_sigmoid(%24)`: the negation, @softplus's fourteen operations on it, the negation of their result. -/
abbrev opsCallA : List (HloOp τ sig (Elt F)) :=
  [ TRef.unary (.of main_v24 : TRef sig ⟨S1048576x1, .f32⟩) main_call0.v0 Host.negf,
    TRef.nullary main_call0.call0.cst (constant S_ .f32 0x00000000#32),
    TRef.unary main_call0.call0.cst main_call0.call0.v0 (broadcastInDim S1048576x1 ![] bcast_S_S1048576x1),
    TRef.binary main_call0.v0 main_call0.call0.v0 main_call0.call0.v1 maximumf,
    TRef.unary main_call0.call0.cst main_call0.call0.v2 (broadcastInDim S1048576x1 ![] bcast_S_S1048576x1),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S1048576x1 ![] bcast_S_S1048576x1),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf ]

/-- `%28 = %26 · %27`, `%30 = 1 − %26`, `%31 = −%24`. -/
abbrev opsMid : List (HloOp τ sig (Elt F)) :=
  [ binary main_v26 main_v27 main_v28 mulf,
    nullary main_cst_5 (constant S_ .f32 0x3F800000#32),
    unary main_cst_5 main_v29 (broadcastInDim S1048576x1 ![] bcast_S_S1048576x1),
    binary main_v29 main_v26 main_v30 subf,
    unary main_v24 main_v31 Host.negf ]

/-- `%32 = log_sigmoid(%31)`, as the first call over the second call's buffers. -/
abbrev opsCallB : List (HloOp τ sig (Elt F)) :=
  [ TRef.unary (.of main_v31 : TRef sig ⟨S1048576x1, .f32⟩) main_call1.v0 Host.negf,
    TRef.nullary main_call1.call0.cst (constant S_ .f32 0x00000000#32),
    TRef.unary main_call1.call0.cst main_call1.call0.v0 (broadcastInDim S1048576x1 ![] bcast_S_S1048576x1),
    TRef.binary main_call1.v0 main_call1.call0.v0 main_call1.call0.v1 maximumf,
    TRef.unary main_call1.call0.cst main_call1.call0.v2 (broadcastInDim S1048576x1 ![] bcast_S_S1048576x1),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S1048576x1 ![] bcast_S_S1048576x1),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf ]

/-- `%34 = %28 + %30 · %32`, summed over all pairs, divided by their number, negated: `%37`. -/
abbrev opsTail : List (HloOp τ sig (Elt F)) :=
  [ binary main_v30 main_v32 main_v33 mulf,
    binary main_v28 main_v33 main_v34 addf,
    nullary main_cst_6 (constant S_ .f32 0x00000000#32),
    binary main_v34 main_cst_6 main_v35 (fun x v => Host.reduceAdd x v reducesTo_S1048576x1_S_d0_1 h_S_),
    nullary main_cst_7 (constant S_ .f32 0x49800000#32),
    binary main_v35 main_cst_7 main_v36 Host.divf,
    unary main_v36 main_v37 Host.negf ]

/-- The whole program: the six stretches one after the other. -/
abbrev ops : List (HloOp τ sig (Elt F)) :=
  opsLogits ++ (opsLabels ++ (opsCallA ++ (opsMid ++ (opsCallB ++ opsTail))))

/-- @main is that straight line: with the two functions unfolded at their calls and sequencing reassociated, both
    sides are one chain of single operations. -/
theorem main_eq (c : Dev nD) : main (F := F) c = seq ops := by
  simp only [main, fn_log_sigmoid.body, fn_softplus.body, seq, bind_assoc, pure_bind]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- What holds of every member of two lists holds of every member of their concatenation. -/
private theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem opsLogits_sub : (opsLogits : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    binary_bufs_sub .., nullary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub ..,
    binary_bufs_sub ..⟩

theorem opsLabels_sub : (opsLabels : List (HloOp τ sig (Elt F))).Forall fun op => op.bufs ⊆ tcRefs τ sig :=
  ⟨unary_bufs_sub .., unary_bufs_sub ..⟩

theorem opsCallA_sub : (opsCallA : List (HloOp τ sig (Elt F))).Forall fun op => op.bufs ⊆ tcRefs τ sig :=
  ⟨unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..⟩

theorem opsMid_sub : (opsMid : List (HloOp τ sig (Elt F))).Forall fun op => op.bufs ⊆ tcRefs τ sig :=
  ⟨binary_bufs_sub .., nullary_bufs_sub .., unary_bufs_sub .., binary_bufs_sub .., unary_bufs_sub ..⟩

theorem opsCallB_sub : (opsCallB : List (HloOp τ sig (Elt F))).Forall fun op => op.bufs ⊆ tcRefs τ sig :=
  ⟨unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..⟩

theorem opsTail_sub : (opsTail : List (HloOp τ sig (Elt F))).Forall fun op => op.bufs ⊆ tcRefs τ sig :=
  ⟨binary_bufs_sub .., binary_bufs_sub .., nullary_bufs_sub .., binary_bufs_sub .., nullary_bufs_sub .., binary_bufs_sub ..,
    unary_bufs_sub ..⟩

/-- Every operation of the program touches TensorCore buffers only. -/
theorem ops_sub : (ops : List (HloOp τ sig (Elt F))).Forall fun op => op.bufs ⊆ tcRefs τ sig :=
  forall_append opsLogits_sub (forall_append opsLabels_sub (forall_append opsCallA_sub (forall_append opsMid_sub
    (forall_append opsCallB_sub opsTail_sub))))

/-! ## The contents after each stretch

Running one list after another is running the second from where the first ends. So the result buffer is read stretch
by stretch, last stretch first: each stretch's result is a function of what the stretch finds in the buffers it reads,
and a buffer the stretch does not write it leaves as found. -/

/-- The contents after a concatenation: the second list run from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

attribute [local irreducible] Host.reduce Host.reduceAdd Host.gather in
/-- After the first stretch `%24` holds the logits of the arguments the stretch finds. -/
theorem logits_at (W : Valuation τ sig (Elt F)) :
    after (opsLogits (F := F)) W (Proc.devRef .tc main_v24)
      = xR (W (Proc.devRef .tc main_arg0)) (W (Proc.devRef .tc main_arg1)) (W (Proc.devRef .tc main_arg3))
          (W (Proc.devRef .tc main_arg4)) (W (Proc.devRef .tc main_arg5)) := by
  simp only [opsLogits]
  after_results_simp
  rfl

/-- After the second stretch `%26` holds the labels of the `s` it finds. -/
theorem labels_at (W : Valuation τ sig (Elt F)) :
    after (opsLabels (F := F)) W (Proc.devRef .tc main_v26) = Bce.labels hostFacts (W (Proc.devRef .tc main_arg2)) := by
  simp only [opsLabels]
  after_results_simp
  rfl

/-- Contents moved to a typed reference's buffer and read back at the value's type are the contents: the two
    transports along the reference's type equation cancel. -/
theorem ofBuf_toBuf {Val : EltTy → Type} {T : BufTy} (x : TRef sig T) (v : T.Contents Val) : x.ofBuf (x.toBuf v) = v := by
  unfold TRef.ofBuf TRef.toBuf
  rw [cast_cast, cast_eq]

/-- The first call's result read at the value's type: every operation of a called function writes through such a
    transport and reads through its inverse, so with the result read this way all of them cancel in pairs and what is
    left is @log_sigmoid's lines on the `%24` the call finds. -/
theorem callA_typed (W : Valuation τ sig (Elt F)) :
    (TRef.of (T := ⟨S1048576x1, .f32⟩) main_v27).ofBuf (after (opsCallA (F := F)) W (Proc.devRef .tc main_v27))
      = Bce.logSigV hostFacts (W (Proc.devRef .tc main_v24)) := by
  simp only [opsCallA]
  after_results_simp
  simp only [ofBuf_toBuf]
  unfold Bce.logSigV Bce.softplusV
  rfl

/-- After the first call `%27` holds `log_sigmoid` of the `%24` it finds (at a literal reference the reading at the
    value's type is the identity). -/
theorem callA_at (W : Valuation τ sig (Elt F)) :
    after (opsCallA (F := F)) W (Proc.devRef .tc main_v27) = Bce.logSigV hostFacts (W (Proc.devRef .tc main_v24)) :=
  callA_typed W

/-- After the middle stretch `%28` holds the product of the `%26` and the `%27` it finds. -/
theorem mid_v28 (W : Valuation τ sig (Elt F)) :
    after (opsMid (F := F)) W (Proc.devRef .tc main_v28)
      = mulf (W (Proc.devRef .tc main_v26)) (W (Proc.devRef .tc main_v27)) := by
  simp only [opsMid]
  after_results_simp

/-- After the middle stretch `%30` holds one minus the `%26` it finds. -/
theorem mid_v30 (W : Valuation τ sig (Elt F)) :
    after (opsMid (F := F)) W (Proc.devRef .tc main_v30)
      = subf (broadcastInDim S1048576x1 ![] bcast_S_S1048576x1 (constant S_ .f32 0x3F800000#32))
          (W (Proc.devRef .tc main_v26)) := by
  simp only [opsMid]
  after_results_simp

/-- After the middle stretch `%31` holds the `%24` it finds, negated. -/
theorem mid_v31 (W : Valuation τ sig (Elt F)) :
    after (opsMid (F := F)) W (Proc.devRef .tc main_v31) = Host.negf (W (Proc.devRef .tc main_v24)) := by
  simp only [opsMid]
  after_results_simp

/-- The second call's result read at the value's type, as the first's. -/
theorem callB_typed (W : Valuation τ sig (Elt F)) :
    (TRef.of (T := ⟨S1048576x1, .f32⟩) main_v32).ofBuf (after (opsCallB (F := F)) W (Proc.devRef .tc main_v32))
      = Bce.logSigV hostFacts (W (Proc.devRef .tc main_v31)) := by
  simp only [opsCallB]
  after_results_simp
  simp only [ofBuf_toBuf]
  unfold Bce.logSigV Bce.softplusV
  rfl

/-- After the second call `%32` holds `log_sigmoid` of the `%31` it finds. -/
theorem callB_at (W : Valuation τ sig (Elt F)) :
    after (opsCallB (F := F)) W (Proc.devRef .tc main_v32) = Bce.logSigV hostFacts (W (Proc.devRef .tc main_v31)) :=
  callB_typed W

attribute [local irreducible] Host.reduce Host.reduceAdd Host.gather in
/-- After the last stretch `%37` holds minus the mean of `%28 + %30 · %32` as the stretch finds them. -/
theorem tail_at (W : Valuation τ sig (Elt F)) :
    after (opsTail (F := F)) W (Proc.devRef .tc main_v37)
      = Host.negf (Host.divf
          (Host.reduceAdd
            (addf (W (Proc.devRef .tc main_v28)) (mulf (W (Proc.devRef .tc main_v30)) (W (Proc.devRef .tc main_v32))))
            (constant S_ .f32 0x00000000#32) reducesTo_S1048576x1_S_d0_1 h_S_)
          (constant S_ .f32 0x49800000#32)) := by
  simp only [opsTail]
  after_results_simp

/-! ### What a stretch leaves alone

Each operation writes one buffer. A buffer that is none of a list's result buffers is, after the list, as before. -/

/-- Of a literal list of single-result operations, given by the names to unfold: no operation writes the buffer in
    question, its reference being distinct from every result's. -/
local macro "none_writes" "[" ls:Lean.Parser.Tactic.simpLemma,* "]" : tactic =>
  `(tactic| (simp only [$ls,*, List.cons_append, List.nil_append, List.Forall, nullary_writes, unary_writes, binary_writes,
      ternary_writes, Finset.mem_singleton]
             repeat' apply And.intro
             all_goals exact devRef_ne_of_ne (by decide)))

/-- The first stretch does not write `s`. -/
theorem logits_keeps_arg2 (W : Valuation τ sig (Elt F)) :
    after (opsLogits (F := F)) W (Proc.devRef .tc main_arg2) = W (Proc.devRef .tc main_arg2) :=
  after_of_forall_not_mem (b := Proc.devRef .tc main_arg2) _ _ (List.forall_iff_forall_mem.mp (by none_writes [opsLogits]))

/-- The second stretch does not write `%24`. -/
theorem labels_keeps_v24 (W : Valuation τ sig (Elt F)) :
    after (opsLabels (F := F)) W (Proc.devRef .tc main_v24) = W (Proc.devRef .tc main_v24) :=
  after_of_forall_not_mem (b := Proc.devRef .tc main_v24) _ _ (List.forall_iff_forall_mem.mp (by none_writes [opsLabels]))

/-- The first call does not write `%24`. -/
theorem callA_keeps_v24 (W : Valuation τ sig (Elt F)) :
    after (opsCallA (F := F)) W (Proc.devRef .tc main_v24) = W (Proc.devRef .tc main_v24) :=
  after_of_forall_not_mem (b := Proc.devRef .tc main_v24) _ _ (List.forall_iff_forall_mem.mp (by none_writes [opsCallA]))

/-- The first call does not write `%26`. -/
theorem callA_keeps_v26 (W : Valuation τ sig (Elt F)) :
    after (opsCallA (F := F)) W (Proc.devRef .tc main_v26) = W (Proc.devRef .tc main_v26) :=
  after_of_forall_not_mem (b := Proc.devRef .tc main_v26) _ _ (List.forall_iff_forall_mem.mp (by none_writes [opsCallA]))

/-- The second call does not write `%28`. -/
theorem callB_keeps_v28 (W : Valuation τ sig (Elt F)) :
    after (opsCallB (F := F)) W (Proc.devRef .tc main_v28) = W (Proc.devRef .tc main_v28) :=
  after_of_forall_not_mem (b := Proc.devRef .tc main_v28) _ _ (List.forall_iff_forall_mem.mp (by none_writes [opsCallB]))

/-- The second call does not write `%30`. -/
theorem callB_keeps_v30 (W : Valuation τ sig (Elt F)) :
    after (opsCallB (F := F)) W (Proc.devRef .tc main_v30) = W (Proc.devRef .tc main_v30) :=
  after_of_forall_not_mem (b := Proc.devRef .tc main_v30) _ _ (List.forall_iff_forall_mem.mp (by none_writes [opsCallB]))

/-- No operation of the program writes `u`. -/
theorem arg0_kept (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    none_writes [ops, opsLogits, opsLabels, opsCallA, opsMid, opsCallB, opsTail]))

/-- No operation of the program writes `i`. -/
theorem arg1_kept (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    none_writes [ops, opsLogits, opsLabels, opsCallA, opsMid, opsCallB, opsTail]))

/-- No operation of the program writes `s`. -/
theorem arg2_kept (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    none_writes [ops, opsLogits, opsLabels, opsCallA, opsMid, opsCallB, opsTail]))

/-- No operation of the program writes `diff`. -/
theorem arg3_kept (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    none_writes [ops, opsLogits, opsLabels, opsCallA, opsMid, opsCallB, opsTail]))

/-- No operation of the program writes `disc`. -/
theorem arg4_kept (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    none_writes [ops, opsLogits, opsLabels, opsCallA, opsMid, opsCallB, opsTail]))

/-- No operation of the program writes `theta`. -/
theorem arg5_kept (V : Valuation τ sig (Elt F)) :
    after (ops (F := F)) V (Proc.devRef .tc main_arg5) = V (Proc.devRef .tc main_arg5) :=
  after_of_forall_not_mem (b := Proc.devRef .tc main_arg5) _ _ (List.forall_iff_forall_mem.mp (by
    none_writes [ops, opsLogits, opsLabels, opsCallA, opsMid, opsCallB, opsTail]))

/-! ## The result -/

attribute [local irreducible] Host.reduce Host.reduceAdd Host.gather in
/-- After the whole program `%37` holds `out` of the arguments: the stretches' results composed, last stretch first —
    the tail over `%28`, `%30`, `%32`; these over `%26`, `%27`, `%24`; these over `s` and the logits. -/
theorem out_at (V : Valuation τ sig (Elt F)) :
    after (ops (F := F)) V (Proc.devRef .tc main_v37)
      = out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, after_append]
  rw [tail_at, callB_keeps_v28, callB_keeps_v30, callB_at, mid_v28, mid_v30, mid_v31, callA_keeps_v26, callA_at,
    callA_keeps_v24, labels_at, labels_keeps_v24, logits_at, logits_keeps_arg2]
  rfl

/-- Every weakly fair execution of the reference terminates with the result at `out` of the arguments, which end unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v37)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v37).trans (out_at _), (h c main_arg0).trans (arg0_kept _),
      (h c main_arg1).trans (arg1_kept _), (h c main_arg2).trans (arg2_kept _), (h c main_arg3).trans (arg3_kept _),
      (h c main_arg4).trans (arg4_kept _), (h c main_arg5).trans (arg5_kept _)⟩)
    (run_seq scopedRefs_eq scopedSems_eq defs main (fun _ => ops) main_eq (fun _ => ops_sub) m ρ)

end Cert.ReferenceIdeal.HandRun

end
-- ==== Proof.TakeEq.lean ====
/-
  A take with a fill is the plain gather when every index is inside the table.

  With `0 ≤ i ≤ hi` at every pair nothing is shifted, both comparisons of the range test hold, their conjunction
  reduced over the unit axis is one, and the select keeps the gathered row.
-/
import proofs.«401049_j455266533950_3_alg».proof.Proof.HostFns
import Idealize.ShloMosaic.PureOps.Reduce
import Idealize.ShloMosaic.Lib.ValueIdx

noncomputable section

namespace Cert.Bce

open Idealize.ShloMosaic

variable {F : FTy → Type} [FloatOps F]

/-- A left fold by `and` from the bit 1 over bits that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = (1#1 : BitVec 1) := by decide
    rw [List.foldl_cons, hf a, h11]
    exact foldl_andi_ones f hf l

/-- A signed "less than zero" test of a word whose signed value is not negative is the bit 0. -/
private theorem cmpi_slt_zero_of_nonneg (w : BitVec 32) (hw : 0 ≤ w.toInt) : IntOp.cmpi .slt w 0#32 = 0#1 := by
  have hz : (0#32 : BitVec 32).toInt = 0 := by decide
  have : w.slt 0#32 = false := by
    rw [BitVec.slt_eq_decide, hz]
    exact decide_eq_false (by omega)
  show BitVec.ofBool (w.slt 0#32) = 0#1
  rw [this]; rfl

/-- A signed "at least zero" test of a word whose signed value is not negative is the bit 1. -/
private theorem cmpi_sge_zero_of_nonneg (w : BitVec 32) (hw : 0 ≤ w.toInt) : IntOp.cmpi .sge w 0#32 = 1#1 := by
  have hz : (0#32 : BitVec 32).toInt = 0 := by decide
  have : (0#32 : BitVec 32).sle w = true := by
    rw [BitVec.sle_eq_decide, hz]
    exact decide_eq_true hw
  show BitVec.ofBool ((0#32 : BitVec 32).sle w) = 1#1
  rw [this]; rfl

/-- A signed "at most `hi`" test of a word whose signed value is at most `hi`'s is the bit 1. -/
private theorem cmpi_sle_of_le (w hi : BitVec 32) (hw : w.toInt ≤ hi.toInt) : IntOp.cmpi .sle w hi = 1#1 := by
  have : w.sle hi = true := by
    rw [BitVec.sle_eq_decide]
    exact decide_eq_true hw
  show BitVec.ofBool (w.sle hi) = 1#1
  rw [this]; rfl

/-- Indices that are not negative are not shifted. -/
private theorem wrapIdx_of_nonneg (hf : HostFacts) (n : BitVec 32) (i : IVec SB 32)
    (h : ∀ p : SB.Idx, 0 ≤ (i p).toInt) : wrapIdx hf n i = i := by
  funext p
  unfold wrapIdx
  rw [ValueIdx.select_apply]
  have hc : cmpi .slt i (broadcastInDim SB ![] hf.b_S_SB (constantI S_ 32 0#32)) p = 0#1 :=
    cmpi_slt_zero_of_nonneg (i p) (h p)
  rw [hc, ValueIdx.select_zero]

/-- Indices inside `[0, hi]` pass the range test at every pair. -/
theorem inRange_of_bounds (hf : HostFacts) (hm : MaskFacts) (n hi : BitVec 32) (i : IVec SB 32)
    (h : ∀ p : SB.Idx, 0 ≤ (i p).toInt ∧ (i p).toInt ≤ hi.toInt) (p : SB.Idx) :
    inRange hf hm hi (colIdx hf n i) p = 1#1 := by
  unfold inRange colIdx
  rw [wrapIdx_of_nonneg hf n i fun q => (h q).1, Host.reduce_eq_foldl]
  refine foldl_andi_ones _ (fun q => ?_) _
  -- the column at `q` is the index of some pair `q'`; both comparisons hold there
  obtain ⟨q', hq'⟩ : ∃ q' : SB.Idx, broadcastInDim (SBk 1) ![0] hf.b_SB_SB1 i q = i q' := ⟨_, rfl⟩
  have h1 : cmpi .sge (broadcastInDim (SBk 1) ![0] hf.b_SB_SB1 i)
      (broadcastInDim (SBk 1) ![] hf.b_S_SB1 (constantI S_ 32 0#32)) q = 1#1 := by
    show IntOp.cmpi .sge (broadcastInDim (SBk 1) ![0] hf.b_SB_SB1 i q) 0#32 = 1#1
    rw [hq']; exact cmpi_sge_zero_of_nonneg _ (h q').1
  have h2 : cmpi .sle (broadcastInDim (SBk 1) ![0] hf.b_SB_SB1 i)
      (broadcastInDim (SBk 1) ![0, 1] hm.b_S1x1_SB1 (broadcastInDim S1x1 ![1] hm.b_S1_S1x1 (constantI S1 32 hi))) q = 1#1 := by
    show IntOp.cmpi .sle (broadcastInDim (SBk 1) ![0] hf.b_SB_SB1 i q) hi = 1#1
    rw [hq']; exact cmpi_sle_of_le _ _ (h q').2
  show IntOp.andi _ _ = 1#1
  rw [h1, h2]; decide

/-- So the filled take is the plain gather. -/
theorem takeFill_eq_gatherRows {N k : Nat} (hf : HostFacts) (hm : MaskFacts) (d : GatherDims (ST N k) (SBk 1) (SBk k))
    (hb : SB.BroadcastsInDim (SBk k) (![0] : Fin 1 → Fin (SBk k).rank))
    (hb0 : S_.BroadcastsInDim (SBk k) (![] : Fin 0 → Fin (SBk k).rank))
    (n hi : BitVec 32) (table : FVec F (ST N k) .f32) (i : IVec SB 32)
    (h : ∀ p : SB.Idx, 0 ≤ (i p).toInt ∧ (i p).toInt ≤ hi.toInt) :
    takeFill hf hm d hb hb0 n hi table i = gatherRows hf d n table i := by
  funext j
  unfold takeFill gatherRows
  rw [ValueIdx.select_apply]
  have hc : broadcastInDim (SBk k) ![0] hb (inRange hf hm hi (colIdx hf n i)) j = 1#1 := by
    obtain ⟨p, hp⟩ : ∃ p : SB.Idx, broadcastInDim (SBk k) ![0] hb (inRange hf hm hi (colIdx hf n i)) j
        = inRange hf hm hi (colIdx hf n i) p := ⟨_, rfl⟩
    rw [hp]; exact inRange_of_bounds hf hm n hi i h p
  rw [hc, ValueIdx.select_one]

end Cert.Bce

end
-- ==== Proof.PreRange.lean ====
/-
  What the precondition says of the index arrays: every item index lies in `[0, 100000)` and every user index in
  `[0, 1000000)` (the two conjuncts after the three finiteness tests).
-/
import proofs.«401049_j455266533950_3_alg».proof.Proof.Gen.Pre_finite_inputs
import Idealize.ShloMosaic.Lib.ReduceAll
import Idealize.ShloMosaic.Lib.StableHlo.Predicate

noncomputable section

namespace Cert.Pre_finite_inputs.Range

open Idealize.ShloMosaic Cert.Pre_finite_inputs

variable {F : FTy → Type} [FloatOps F]

/-- The rank-0 shape has one index. -/
private instance : Subsingleton S_.Idx := ⟨fun a b => funext fun d => d.elim0⟩

/-- One printed range test read back: an `and` over all pairs of "at least zero" and "below `c`" that came out 1
    bounds every entry, read as a signed integer. -/
private theorem range_of_all (a : IVec S1048576 32) (c : BitVec 32) (j : S_.Idx)
    (h : Host.reduce IntOp.andi
        (andi (cmpi .sge a (broadcastInDim S1048576 ![] Facts.bcast_S_S1048576 (constantI S_ 32 0#32)))
              (cmpi .slt a (broadcastInDim S1048576 ![] Facts.bcast_S_S1048576 (constantI S_ 32 c))))
        (constantI S_ 1 1#1) Facts.reducesTo_S1048576_S_d0 Facts.h_S_ j = 1#1) (p : S1048576.Idx) :
    0 ≤ (a p).toInt ∧ (a p).toInt < c.toInt := by
  -- every element of the reduced array is 1; an element is the `and` of the two comparisons at that pair
  have e := Host.reduce_andi_all _ _ _ _ _ h p
  obtain ⟨e1, e2⟩ := IntOp.andi_eq_one.1 e
  have z : (0#32 : BitVec 32).toInt = 0 := by decide
  exact ⟨z ▸ IntOp.cmpi_sge.1 e1, IntOp.cmpi_slt.1 e2⟩

/-- Under the precondition every item index is inside the item tables. -/
theorem items_in_range (a0 a1 a2 : IVec S1048576 32) (a3 : FVec F S100000x1 .f32) (a4 : FVec F S100000x64 .f32)
    (a5 : FVec F S1000000x64 .f32) (h : fn (F := F) a0 a1 a2 a3 a4 a5 = fun _ => 1#1) (p : S1048576.Idx) :
    0 ≤ (a1 p).toInt ∧ (a1 p).toInt < 100000 := by
  -- the predicate is ((((f₃ ∧ f₄) ∧ f₅) ∧ items) ∧ users) at the one index of the rank-0 result
  have h0 := congrFun h (fun d => d.elim0)
  dsimp only [fn, fn_part1] at h0
  obtain ⟨h20, -⟩ := IntOp.andi_eq_one.1 h0
  obtain ⟨-, h19⟩ := IntOp.andi_eq_one.1 h20
  have r := range_of_all a1 100000#32 _ h19 p
  have c : (100000#32 : BitVec 32).toInt = 100000 := by decide
  rw [c] at r; exact r

/-- Under the precondition every user index is inside the user table. -/
theorem users_in_range (a0 a1 a2 : IVec S1048576 32) (a3 : FVec F S100000x1 .f32) (a4 : FVec F S100000x64 .f32)
    (a5 : FVec F S1000000x64 .f32) (h : fn (F := F) a0 a1 a2 a3 a4 a5 = fun _ => 1#1) (p : S1048576.Idx) :
    0 ≤ (a0 p).toInt ∧ (a0 p).toInt < 1000000 := by
  have h0 := congrFun h (fun d => d.elim0)
  dsimp only [fn, fn_part1] at h0
  obtain ⟨-, h26⟩ := IntOp.andi_eq_one.1 h0
  have r := range_of_all a0 1000000#32 _ h26 p
  have c : (1000000#32 : BitVec 32).toInt = 1000000 := by decide
  rw [c] at r; exact r

end Cert.Pre_finite_inputs.Range

end
-- ==== Proof.Sums.lean ====
/-
  The two re-indexings of the sum over all pairs: the kernel's 16 × 128 partial sums add up to the sum over the
  8192 × 128 layout, and re-laying a column of 1048576 entries as 8192 × 128 does not change the sum of a function of
  the entries.
-/
import proofs.«401049_j455266533950_3_alg».proof.Proof.BlockSum
import Idealize.ShloMosaic.Lib.Pipeline.Value

noncomputable section

namespace Cert.Bce

open Idealize.ShloMosaic Idealize.ShloMosaic.ValueIdx

/-- A step's contribution, written over the rows `rowOf r b g`: grid point `t = 4 · (r / 8) + b` at sublane
    `p = r % 8` reads row `t · 1024 + g · 8 + p = ((r / 8) · 4 + b) · 1024 + g · 8 + r % 8` in group `g`. -/
private theorem stepSum_eq (X S : SR.Idx → EReal) (r : Fin 16) (b : Fin 4) (q : Fin 128) (t p : Fin 8)
    (ht : t.val = 4 * (r.val / 8) + b.val) (hp : p.val = r.val % 8) :
    stepSum X S t p q = ∑ g : Fin 128, term (X (ix2 (rowOf r b g) q)) (S (ix2 (rowOf r b g) q)) := by
  unfold stepSum
  refine Finset.sum_congr rfl fun g _ => ?_
  have hrow : stepRow t g p = rowOf r b g := by
    apply Fin.ext
    simp only [stepRow, rowOf]
    omega
  rw [hrow]

/-- A core's block at sublane `r % 8`: the zero it starts from adds nothing, and its four steps in order are the sum
    over `b : Fin 4`. -/
private theorem coreSum_eq (X S : SR.Idx → EReal) (r : Fin 16) (q : Fin 128) (c : Fin 2) (p : Fin 8)
    (hc : c.val = r.val / 8) (hp : p.val = r.val % 8) :
    coreSum X S c p q = ∑ b : Fin 4, ∑ g : Fin 128, term (X (ix2 (rowOf r b g) q)) (S (ix2 (rowOf r b g) q)) := by
  unfold coreSum
  rw [zero_add, Fin.sum_univ_four,
    stepSum_eq X S r 0 q _ p (by show 4 * c.val = 4 * (r.val / 8) + 0; omega) hp,
    stepSum_eq X S r 1 q _ p (by show 4 * c.val + 1 = 4 * (r.val / 8) + 1; omega) hp,
    stepSum_eq X S r 2 q _ p (by show 4 * c.val + 2 = 4 * (r.val / 8) + 2; omega) hp,
    stepSum_eq X S r 3 q _ p (by show 4 * c.val + 3 = 4 * (r.val / 8) + 3; omega) hp]

/-- Output entry `(r, q)` is the sum over the four steps and the 128 groups of the pairs at rows `rowOf r b g`, lane `q`. -/
private theorem blockSum_ix2 (X S : SR.Idx → EReal) (r : Fin 16) (q : Fin 128) :
    blockSum X S (ix2 r q)
      = ∑ b : Fin 4, ∑ g : Fin 128, term (X (ix2 (rowOf r b g) q)) (S (ix2 (rowOf r b g) q)) :=
  coreSum_eq X S r q _ _ rfl rfl

/-- The partial sums add up to the sum over every row and lane. -/
theorem sum_blockSum (X S : SR.Idx → EReal) : ∑ j : SO.Idx, blockSum X S j = ∑ i : SR.Idx, term (X i) (S i) := by
  -- Both sides by coordinates, the lane sum outermost; for a fixed lane the rows `rowOf r b g` are every row once.
  calc ∑ j : SO.Idx, blockSum X S j
      = ∑ r : Fin 16, ∑ q : Fin 128, blockSum X S (ix2 r q) := sum_idx2 (fun j => blockSum X S j)
    _ = ∑ q : Fin 128, ∑ r : Fin 16, blockSum X S (ix2 r q) := Finset.sum_comm
    _ = ∑ q : Fin 128, ∑ R : Fin 8192, term (X (ix2 R q)) (S (ix2 R q)) := by
        refine Finset.sum_congr rfl fun q _ => ?_
        rw [← regroup (fun R => term (X (ix2 R q)) (S (ix2 R q)))]
        exact Finset.sum_congr rfl fun r _ => blockSum_ix2 X S r q
    _ = ∑ R : Fin 8192, ∑ q : Fin 128, term (X (ix2 R q)) (S (ix2 R q)) := Finset.sum_comm
    _ = ∑ i : SR.Idx, term (X i) (S i) := (sum_idx2 (fun i => term (X i) (S i))).symm

/-- Re-laying the pairs as 8192 × 128 keeps the sum of any function of the entries. -/
theorem sum_shapeCast (hsc : (SBk 1).ShapeCasts SR) (f : EReal → EReal → EReal) (x s : (SBk 1).Idx → EReal) :
    ∑ i : SR.Idx, f (shapeCast SR x hsc i) (shapeCast SR s hsc i) = ∑ p : (SBk 1).Idx, f (x p) (s p) :=
  -- The re-laid array at `i` is the column at the index with the same row-major position, and matching indices by
  -- row-major position is a bijection between the two index sets.
  Equiv.sum_comp (Shape.reshapeEquiv hsc) (fun p => f (x p) (s p))

end Cert.Bce

end
-- ==== Proof.Tails.lean ====
/-
  The two programs' last lines read on the extended reals.

  The reference's lines are, pair by pair, the log-likelihood `term`; its result is minus the quotient of their sum
  (onto zero) by the number of pairs. The kernel program's result is the quotient of minus the sum of the partial sums.
  The divisor is the finite nonzero 1048576, so the sign moves through the quotient.
-/
import proofs.«401049_j455266533950_3_alg».proof.Proof.Spec
import proofs.«401049_j455266533950_3_alg».proof.Proof.HostFns

noncomputable section

namespace Cert.Bce

open Idealize.ShloMosaic Idealize.ShloMosaic.ValueIdx

/-- A rank-0 constant broadcast over the pairs reads, at every pair, the extended real its word denotes. -/
private theorem bcast_const_apply {φ : FTy} (hb : S_.BroadcastsInDim (SBk 1) (![] : Fin 0 → Fin 2))
    (w : BitVec φ.bits) (p : (SBk 1).Idx) :
    broadcastInDim (SBk 1) (![] : Fin 0 → Fin 2) hb (constant (F := Ideal) S_ φ w) p = Ideal.ofBits φ w := rfl

/-- An extended real is never different from itself: the comparison's bit is 0. -/
private theorem cmp_une_self (y : EReal) : Ideal.cmp .une y y = 0#1 := by
  simp [Ideal.cmp]

/-- The reference's `softplus` lines at one pair: the guard `a - 0 ≠ a - 0` never holds, so the value is the
    second branch, `max a 0 + log1p (exp (-|a - 0|))`, and `a - 0 = a`. -/
private theorem softplusV_apply (hf : HostFacts) (a : (SBk 1).Idx → EReal) (p : (SBk 1).Idx) :
    softplusV (F := Ideal) hf a p = softplus (a p) := by
  simp only [softplusV, softplus, select_apply, cmpf_apply, subf_apply, addf_apply, maximumf_apply, bcast_const_apply,
    Host.log1p, Host.exp, Host.negf, Host.absf, Ideal.cmpf_def, Ideal.hostUnary_log1p_def, Ideal.hostUnary_exp_def,
    Ideal.hostNegf_def, Ideal.hostAbsf_def, Ideal.negf_def, Ideal.absf_def, Ideal.ofBits_zero_f32, sub_zero,
    cmp_une_self, select_zero]

/-- The reference's `log_sigmoid` lines at one pair. -/
private theorem logSigV_apply (hf : HostFacts) (a : (SBk 1).Idx → EReal) (p : (SBk 1).Idx) :
    logSigV (F := Ideal) hf a p = logSig (a p) := by
  simp only [logSigV, logSig, Host.negf, Ideal.hostNegf_def, Ideal.negf_def, softplusV_apply]

/-- The reference's log-likelihood array is `term` pair by pair. -/
theorem lossV_apply (hf : HostFacts) (x s : (SBk 1).Idx → EReal) (p : (SBk 1).Idx) :
    lossV (F := Ideal) hf x s p = term (x p) (s p) := by
  simp only [lossV, term, addf_apply, mulf_apply, subf_apply, bcast_const_apply, logSigV_apply, Host.negf,
    Ideal.hostNegf_def, Ideal.negf_def]

/-- The reference's result: the sum over every axis into the one-index shape is the initial value (the zero word,
    which denotes `0`) plus the sum over all pairs; each summand is `term`; then the quotient and the sign. -/
theorem refOut_eq (hf : HostFacts) (hr : (SBk 1).ReducesTo [0, 1] S_) (x s : (SBk 1).Idx → EReal) :
    refOut (F := Ideal) hf hr x s
      = fun _ => -(Ideal.div (0 + ∑ p : (SBk 1).Idx, term (x p) (s p)) (Ideal.ofBits .f32 0x49800000#32)) := by
  funext j
  simp only [refOut, Host.negf, Host.divf, Host.reduceAdd, Ideal.hostNegf_def, Ideal.negf_def, Ideal.hostDivf_def,
    Ideal.hostReduceAdd_def, constant_apply, Ideal.hostReduceAdd_total hr (fun b => b.elim0), Ideal.ofBits_zero_f32,
    lossV_apply]

/-- The kernel program's result from the partial sums: the same total sum, over the 16 × 128 partial sums, negated
    and then divided. -/
theorem kernelOut_eq (hf : HostFacts) (hr : SO.ReducesTo [0, 1] S_) (o : SO.Idx → EReal) :
    kernelOut (F := Ideal) hf hr o
      = fun _ => Ideal.div (-(0 + ∑ j : SO.Idx, o j)) (Ideal.ofBits .f32 0x49800000#32) := by
  funext j
  simp only [kernelOut, Host.negf, Host.divf, Host.reduceAdd, Ideal.hostNegf_def, Ideal.negf_def, Ideal.hostDivf_def,
    Ideal.hostReduceAdd_def, constant_apply, Ideal.hostReduceAdd_total hr (fun b => b.elim0), Ideal.ofBits_zero_f32]

/-- The divisor's word: sign 0, exponent 147, fraction 0, that is `2 ^ 23 · 2 ^ (147 − 127 − 23) = 2 ^ 20 = 1048576`,
    the number of pairs. -/
private theorem ofBits_pairs : Ideal.ofBits .f32 0x49800000#32 = ((1048576 : ℝ) : EReal) := by
  simp [Ideal.ofBits, Ideal.ieee, -EReal.coe_mul]; norm_num

/-- Dividing by the number of pairs commutes with negation: the divisor is a nonzero real, so the quotient is the
    product with its reciprocal, and on the extended reals `(-a) * c = -(a * c)`. -/
theorem div_pairs_neg (a : EReal) :
    Ideal.div (-a) (Ideal.ofBits .f32 0x49800000#32) = -(Ideal.div a (Ideal.ofBits .f32 0x49800000#32)) := by
  rw [ofBits_pairs, Ideal.div_coe (by norm_num), Ideal.div_coe (by norm_num), neg_mul]

end Cert.Bce

end
-- ==== Proof.Bridge.lean ====
/-
  The two results are one number.

  The kernel program divides minus the sum of its partial sums by the number of pairs; the partial sums add up to the
  sum over the 8192 × 128 layout, which is the sum over the pairs; dividing by the finite nonzero number of pairs
  commutes with negation; and the reference's result is minus that quotient.
-/
import proofs.«401049_j455266533950_3_alg».proof.Proof.Sums
import proofs.«401049_j455266533950_3_alg».proof.Proof.Tails

noncomputable section

namespace Cert.Bce

open Idealize.ShloMosaic

/-- The kernel program's tail over the partial sums of the re-laid arrays is the reference's tail over the arrays. -/
theorem kernelOut_blockSum (hf hf' : HostFacts) (hr : SO.ReducesTo [0, 1] S_) (hr' : (SBk 1).ReducesTo [0, 1] S_)
    (hsc : (SBk 1).ShapeCasts SR) (x s : (SBk 1).Idx → EReal) :
    kernelOut (F := Ideal) hf hr (blockSum (shapeCast SR x hsc) (shapeCast SR s hsc)) = refOut (F := Ideal) hf' hr' x s := by
  rw [kernelOut_eq, refOut_eq, sum_blockSum, sum_shapeCast hsc term x s]
  funext _
  exact div_pairs_neg _

end Cert.Bce

end
-- ==== Proof.lean ====
/-
  Binary cross-entropy of a multidimensional item-response model over 1048576 (user, item, label) triples: both
  programs compute minus the mean over the pairs of `s · log σ(x) + (1 − s) · log σ(−x)`, where the logit `x` is the
  inner product of the item's row of `disc` with the user's row of `theta` plus the item's entry of `diff`.

  The precondition asks, beside finite float inputs, that every item index lie in [0, 100000) and every user index in
  [0, 1000000): outside those ranges the reference itself indexes its tables out of range. Inside them the kernel
  program's gathers (a take that fills rows at out-of-range indices) are the reference's plain gathers, so the two
  programs form the same logits and labels. The kernel then adds the pairs' log-likelihoods in 16 × 128 partial sums
  (two cores, four steps of 1024 rows each, 128 groups of 8 sublanes per step) which its host lines add up; the
  reference adds them all at once. Sums on the extended reals may be regrouped freely, and division by the number of
  pairs, a finite nonzero real, commutes with negation: the two results are equal.

  The frames of the two kernel programs are the generated ones; the reference's frame is its run with the result
  dropped; the idealization rewrote nothing.
-/
import proofs.«401049_j455266533950_3_alg».proof.Defs
import proofs.«401049_j455266533950_3_alg».proof.Proof.Gen.Kernel
import proofs.«401049_j455266533950_3_alg».proof.Proof.Gen.Kernel.Skeleton
import proofs.«401049_j455266533950_3_alg».proof.Proof.Gen.Kernel.Launch
import proofs.«401049_j455266533950_3_alg».proof.Proof.Gen.Kernel.Points
import proofs.«401049_j455266533950_3_alg».proof.Proof.Gen.Kernel.Frame
import proofs.«401049_j455266533950_3_alg».proof.Proof.Gen.KernelIdeal
import proofs.«401049_j455266533950_3_alg».proof.Proof.Gen.KernelIdeal.Skeleton
import proofs.«401049_j455266533950_3_alg».proof.Proof.Gen.KernelIdeal.Launch
import proofs.«401049_j455266533950_3_alg».proof.Proof.Gen.KernelIdeal.Points
import proofs.«401049_j455266533950_3_alg».proof.Proof.Gen.KernelIdeal.Frame
import proofs.«401049_j455266533950_3_alg».proof.Proof.Gen.ReferenceIdeal
import proofs.«401049_j455266533950_3_alg».proof.Proof.Gen.Pre_finite_inputs
import proofs.«401049_j455266533950_3_alg».proof.Proof.KernelRun
import proofs.«401049_j455266533950_3_alg».proof.Proof.RefRun
import proofs.«401049_j455266533950_3_alg».proof.Proof.TakeEq
import proofs.«401049_j455266533950_3_alg».proof.Proof.PreRange
import proofs.«401049_j455266533950_3_alg».proof.Proof.Bridge
import Idealize.ShloMosaic.Adequacy
import Idealize.ShloMosaic.Init

noncomputable section

namespace Cert.Proof

open Idealize.ShloMosaic Idealize.SL.Sem

/-- With every index inside its table the kernel program's logits are the reference's: each filled take is the
    plain gather. -/
theorem logits_eq (u i : IVec Cert.KernelIdeal.S1048576 32) (diff : FVec Ideal Cert.KernelIdeal.S100000x1 .f32)
    (disc : FVec Ideal Cert.KernelIdeal.S100000x64 .f32) (theta : FVec Ideal Cert.KernelIdeal.S1000000x64 .f32)
    (hi : ∀ p, 0 ≤ (i p).toInt ∧ (i p).toInt < 100000) (hu : ∀ p, 0 ≤ (u p).toInt ∧ (u p).toInt < 1000000) :
    Cert.KernelIdeal.HostValue.xK (F := Ideal) u i diff disc theta = Cert.ReferenceIdeal.HandRun.xR (F := Ideal) u i diff disc theta := by
  have h99 : (99999#32 : BitVec 32).toInt = 99999 := by decide
  have h999 : (999999#32 : BitVec 32).toInt = 999999 := by decide
  have hi' : ∀ p, 0 ≤ (i p).toInt ∧ (i p).toInt ≤ (99999#32 : BitVec 32).toInt := fun p => ⟨(hi p).1, by rw [h99]; have := (hi p).2; omega⟩
  have hu' : ∀ p, 0 ≤ (u p).toInt ∧ (u p).toInt ≤ (999999#32 : BitVec 32).toInt := fun p => ⟨(hu p).1, by rw [h999]; have := (hu p).2; omega⟩
  unfold Cert.KernelIdeal.HostValue.xK Cert.KernelIdeal.HostValue.takeDisc Cert.KernelIdeal.HostValue.takeTheta
    Cert.KernelIdeal.HostValue.takeDiff Cert.ReferenceIdeal.HandRun.xR
  rw [Bce.takeFill_eq_gatherRows (F := Ideal) _ _ _ _ _ _ _ disc i hi', Bce.takeFill_eq_gatherRows (F := Ideal) _ _ _ _ _ _ _ theta u hu',
    Bce.takeFill_eq_gatherRows (F := Ideal) _ _ _ _ _ _ _ diff i hi']
  rfl

/-- Under the precondition the two programs' results are the same function of the arguments. -/
theorem value_eq (u i s : IVec Cert.KernelIdeal.S1048576 32) (diff : FVec Ideal Cert.KernelIdeal.S100000x1 .f32)
    (disc : FVec Ideal Cert.KernelIdeal.S100000x64 .f32) (theta : FVec Ideal Cert.KernelIdeal.S1000000x64 .f32)
    (hpre : Cert.Pre_finite_inputs.fn (F := Ideal) u i s diff disc theta = fun _ => 1#1) :
    Cert.ReferenceIdeal.HandRun.out (F := Ideal) u i s diff disc theta = Cert.KernelIdeal.FinalValue.out u i s diff disc theta := by
  unfold Cert.ReferenceIdeal.HandRun.out Cert.KernelIdeal.FinalValue.out
  rw [logits_eq u i diff disc theta (Cert.Pre_finite_inputs.Range.items_in_range u i s diff disc theta hpre)
    (Cert.Pre_finite_inputs.Range.users_in_range u i s diff disc theta hpre)]
  exact (Bce.kernelOut_blockSum _ _ _ _ _ _ _).symm

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both programs run, and end with the same result. -/
theorem algebraic : Cert.algebraic_KernelIdeal_ReferenceIdeal := by
  intro m ρ m' ρ' hpre hagree
  refine ⟨_, Cert.KernelIdeal.FinalValue.run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5⟩ := hagree c
  rw [e0, e1, e2, e3, e4, e5]
  exact value_eq _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
